-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S50000x32 : Shape := ⟨2, ![50000, 32]⟩
abbrev S2048x64 : Shape := ⟨2, ![2048, 64]⟩
abbrev S1x64 : Shape := ⟨2, ![1, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S2048x64 : S_.BroadcastsInDim S2048x64 (![] : Fin 0 → Fin S2048x64.rank)
  reducesTo_S2048x64_S_d0_1 : S2048x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : FVec F S50000x64 .f32) (main_arg1 : FVec F S50000x3 .f32) (main_arg2 : IVec S50000x32 32) (main_arg3 : FVec F S2048x64 .f32) (main_arg4 : FVec F S1x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S2048x64 .f32 := Host.absf main_arg3
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S50000x64 : Shape := ⟨2, ![50000, 64]⟩
abbrev S50000x3 : Shape := ⟨2, ![50000, 3]⟩
abbrev S50000x32 : Shape := ⟨2, ![50000, 32]⟩
abbrev S2048x64 : Shape := ⟨2, ![2048, 64]⟩
abbrev S1x64 : Shape := ⟨2, ![1, 64]⟩
abbrev S_ : Shape := ⟨0, ![]⟩
abbrev S50000x32x1 : Shape := ⟨3, ![50000, 32, 1]⟩
abbrev S50000x32x64 : Shape := ⟨3, ![50000, 32, 64]⟩
abbrev S50000x32x3 : Shape := ⟨3, ![50000, 32, 3]⟩
abbrev S50000x1x3 : Shape := ⟨3, ![50000, 1, 3]⟩
abbrev S32x64x64 : Shape := ⟨3, ![32, 64, 64]⟩
abbrev S1000x32x64 : Shape := ⟨3, ![1000, 32, 64]⟩
abbrev S1000x32 : Shape := ⟨2, ![1000, 32]⟩
abbrev S1000x64 : Shape := ⟨2, ![1000, 64]⟩
abbrev S1000x1x64 : Shape := ⟨3, ![1000, 1, 64]⟩
abbrev S1000x1 : Shape := ⟨2, ![1000, 1]⟩
abbrev S1x64x64 : Shape := ⟨3, ![1, 64, 64]⟩
abbrev S64x64 : Shape := ⟨2, ![64, 64]⟩

abbrev nBuf : Space → Nat
  | .hbm => 46
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S50000x32, .i32⟩
  | .hbm, ⟨3, _⟩ => ⟨S2048x64, .f32⟩
  | .hbm, ⟨4, _⟩ => ⟨S1x64, .f32⟩
  | .hbm, ⟨5, _⟩ => ⟨S_, .i32⟩
  | .hbm, ⟨6, _⟩ => ⟨S50000x32, .i32⟩
  | .hbm, ⟨7, _⟩ => ⟨S50000x32, .i1⟩
  | .hbm, ⟨8, _⟩ => ⟨S_, .i32⟩
  | .hbm, ⟨9, _⟩ => ⟨S50000x32, .i32⟩
  | .hbm, ⟨10, _⟩ => ⟨S50000x32, .i32⟩
  | .hbm, ⟨11, _⟩ => ⟨S50000x32, .i32⟩
  | .hbm, ⟨12, _⟩ => ⟨S50000x32x1, .i32⟩
  | .hbm, ⟨13, _⟩ => ⟨S50000x32x64, .f32⟩
  | .hbm, ⟨14, _⟩ => ⟨S_, .i32⟩
  | .hbm, ⟨15, _⟩ => ⟨S50000x32, .i32⟩
  | .hbm, ⟨16, _⟩ => ⟨S50000x32, .i1⟩
  | .hbm, ⟨17, _⟩ => ⟨S_, .i32⟩
  | .hbm, ⟨18, _⟩ => ⟨S50000x32, .i32⟩
  | .hbm, ⟨19, _⟩ => ⟨S50000x32, .i32⟩
  | .hbm, ⟨20, _⟩ => ⟨S50000x32, .i32⟩
  | .hbm, ⟨21, _⟩ => ⟨S50000x32x1, .i32⟩
  | .hbm, ⟨22, _⟩ => ⟨S50000x32x3, .f32⟩
  | .hbm, ⟨23, _⟩ => ⟨S50000x1x3, .f32⟩
  | .hbm, ⟨24, _⟩ => ⟨S50000x32x3, .f32⟩
  | .hbm, ⟨25, _⟩ => ⟨S50000x32x3, .f32⟩
  | .hbm, ⟨26, _⟩ => ⟨S50000x32x3, .f32⟩
  | .hbm, ⟨27, _⟩ => ⟨S_, .f32⟩
  | .hbm, ⟨28, _⟩ => ⟨S50000x32, .f32⟩
  | .hbm, ⟨29, _⟩ => ⟨S_, .f32⟩
  | .hbm, ⟨30, _⟩ => ⟨S50000x32, .f32⟩
  | .hbm, ⟨31, _⟩ => ⟨S50000x32, .i1⟩
  | .hbm, ⟨32, _⟩ => ⟨S_, .f32⟩
  | .hbm, ⟨33, _⟩ => ⟨S50000x32, .f32⟩
  | .hbm, ⟨34, _⟩ => ⟨S50000x32, .i1⟩
  | .hbm, ⟨35, _⟩ => ⟨S_, .f32⟩
  | .hbm, ⟨36, _⟩ => ⟨S_, .f32⟩
  | .hbm, ⟨37, _⟩ => ⟨S50000x32, .f32⟩
  | .hbm, ⟨38, _⟩ => ⟨S50000x32, .f32⟩
  | .hbm, ⟨39, _⟩ => ⟨S50000x32, .f32⟩
  | .hbm, ⟨40, _⟩ => ⟨S_, .f32⟩
  | .hbm, ⟨41, _⟩ => ⟨S_, .f32⟩
  | .hbm, ⟨42, _⟩ => ⟨S50000x32, .f32⟩
  | .hbm, ⟨43, _⟩ => ⟨S50000x32, .f32⟩
  | .hbm, ⟨44, _⟩ => ⟨S32x64x64, .f32⟩
  | .hbm, ⟨45, _⟩ => ⟨S50000x64, .f32⟩
  | .local _ .vmem, ⟨0, _⟩ => ⟨S1000x32x64, .f32⟩
  | .local _ .vmem, ⟨1, _⟩ => ⟨S1000x32x64, .f32⟩
  | .local _ .vmem, ⟨2, _⟩ => ⟨S1000x32, .f32⟩
  | .local _ .vmem, ⟨3, _⟩ => ⟨S1000x32, .f32⟩
  | .local _ .vmem, ⟨4, _⟩ => ⟨S32x64x64, .f32⟩
  | .local _ .vmem, ⟨5, _⟩ => ⟨S1x64, .f32⟩
  | .local _ .vmem, ⟨6, _⟩ => ⟨S1000x64, .f32⟩
  | .local _ .vmem, ⟨7, _⟩ => ⟨S1000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S50000x3_S50000x1x3_0_2 : S50000x3.BroadcastsInDim S50000x1x3 (![0, 2] : Fin 2 → Fin S50000x1x3.rank)
  bcast_S50000x1x3_S50000x32x3_0_1_2 : S50000x1x3.BroadcastsInDim S50000x32x3 (![0, 1, 2] : Fin 3 → Fin S50000x32x3.rank)
  reducesTo_S50000x32x3_S50000x32_d2 : S50000x32x3.ReducesTo [2] S50000x32
  h_S_ : 0 < S_.numel
  shapeCasts_S2048x64_S32x64x64 : S2048x64.ShapeCasts S32x64x64
  inb_S1000x32x64_S1000x1x64_0_0_0 : ∀ a, (![0, 0, 0] : Fin 3 → Nat) a + S1000x1x64.size a ≤ S1000x32x64.size a
  h_S1000x1x64 : 0 < S1000x1x64.numel
  shapeCasts_S1000x1x64_S1000x64 : S1000x1x64.ShapeCasts S1000x64
  inb_S1000x32_S1000x1_0_0 : ∀ a, (![0, 0] : Fin 2 → Nat) a + S1000x1.size a ≤ S1000x32.size a
  h_S1000x1 : 0 < S1000x1.numel
  shapeCasts_S1000x1_S1000x1 : S1000x1.ShapeCasts S1000x1
  broadcasts_S1000x1_S1000x64 : S1000x1.Broadcasts S1000x64
  bitsLt_bf16_f32 : FTy.bits .bf16 < FTy.bits .f32
  inb_S32x64x64_S1x64x64_0_0_0 : ∀ a, (![0, 0, 0] : Fin 3 → Nat) a + S1x64x64.size a ≤ S32x64x64.size a
  h_S1x64x64 : 0 < S1x64x64.numel
  shapeCasts_S1x64x64_S64x64 : S1x64x64.ShapeCasts S64x64
  inb_S1000x32x64_S1000x1x64_0_1_0 : ∀ a, (![0, 1, 0] : Fin 3 → Nat) a + S1000x1x64.size a ≤ S1000x32x64.size a
  inb_S1000x32_S1000x1_0_1 : ∀ a, (![0, 1] : Fin 2 → Nat) a + S1000x1.size a ≤ S1000x32.size a
  inb_S32x64x64_S1x64x64_1_0_0 : ∀ a, (![1, 0, 0] : Fin 3 → Nat) a + S1x64x64.size a ≤ S32x64x64.size a
  inb_S1000x32x64_S1000x1x64_0_2_0 : ∀ a, (![0, 2, 0] : Fin 3 → Nat) a + S1000x1x64.size a ≤ S1000x32x64.size a
  inb_S1000x32_S1000x1_0_2 : ∀ a, (![0, 2] : Fin 2 → Nat) a + S1000x1.size a ≤ S1000x32.size a
  inb_S32x64x64_S1x64x64_2_0_0 : ∀ a, (![2, 0, 0] : Fin 3 → Nat) a + S1x64x64.size a ≤ S32x64x64.size a
  inb_S1000x32x64_S1000x1x64_0_3_0 : ∀ a, (![0, 3, 0] : Fin 3 → Nat) a + S1000x1x64.size a ≤ S1000x32x64.size a
  inb_S1000x32_S1000x1_0_3 : ∀ a, (![0, 3] : Fin 2 → Nat) a + S1000x1.size a ≤ S1000x32.size a
  inb_S32x64x64_S1x64x64_3_0_0 : ∀ a, (![3, 0, 0] : Fin 3 → Nat) a + S1x64x64.size a ≤ S32x64x64.size a
  inb_S1000x32x64_S1000x1x64_0_4_0 : ∀ a, (![0, 4, 0] : Fin 3 → Nat) a + S1000x1x64.size a ≤ S1000x32x64.size a
  inb_S1000x32_S1000x1_0_4 : ∀ a, (![0, 4] : Fin 2 → Nat) a + S1000x1.size a ≤ S1000x32.size a
  inb_S32x64x64_S1x64x64_4_0_0 : ∀ a, (![4, 0, 0] : Fin 3 → Nat) a + S1x64x64.size a ≤ S32x64x64.size a
  inb_S1000x32x64_S1000x1x64_0_5_0 : ∀ a, (![0, 5, 0] : Fin 3 → Nat) a + S1000x1x64.size a ≤ S1000x32x64.size a
  inb_S1000x32_S1000x1_0_5 : ∀ a, (![0, 5] : Fin 2 → Nat) a + S1000x1.size a ≤ S1000x32.size a
  inb_S32x64x64_S1x64x64_5_0_0 : ∀ a, (![5, 0, 0] : Fin 3 → Nat) a + S1x64x64.size a ≤ S32x64x64.size a
  inb_S1000x32x64_S1000x1x64_0_6_0 : ∀ a, (![0, 6, 0] : Fin 3 → Nat) a + S1000x1x64.size a ≤ S1000x32x64.size a
  inb_S1000x32_S1000x1_0_6 : ∀ a, (![0, 6] : Fin 2 → Nat) a + S1000x1.size a ≤ S1000x32.size a
  inb_S32x64x64_S1x64x64_6_0_0 : ∀ a, (![6, 0, 0] : Fin 3 → Nat) a + S1x64x64.size a ≤ S32x64x64.size a
  inb_S1000x32x64_S1000x1x64_0_7_0 : ∀ a, (![0, 7, 0] : Fin 3 → Nat) a + S1000x1x64.size a ≤ S1000x32x64.size a
  inb_S1000x32_S1000x1_0_7 : ∀ a, (![0, 7] : Fin 2 → Nat) a + S1000x1.size a ≤ S1000x32.size a
  inb_S32x64x64_S1x64x64_7_0_0 : ∀ a, (![7, 0, 0] : Fin 3 → Nat) a + S1x64x64.size a ≤ S32x64x64.size a
  inb_S1000x32x64_S1000x1x64_0_8_0 : ∀ a, (![0, 8, 0] : Fin 3 → Nat) a + S1000x1x64.size a ≤ S1000x32x64.size a
  inb_S1000x32_S1000x1_0_8 : ∀ a, (![0, 8] : Fin 2 → Nat) a + S1000x1.size a ≤ S1000x32.size a
  inb_S32x64x64_S1x64x64_8_0_0 : ∀ a, (![8, 0, 0] : Fin 3 → Nat) a + S1x64x64.size a ≤ S32x64x64.size a
  inb_S1000x32x64_S1000x1x64_0_9_0 : ∀ a, (![0, 9, 0] : Fin 3 → Nat) a + S1000x1x64.size a ≤ S1000x32x64.size a
  inb_S1000x32_S1000x1_0_9 : ∀ a, (![0, 9] : Fin 2 → Nat) a + S1000x1.size a ≤ S1000x32.size a
  inb_S32x64x64_S1x64x64_9_0_0 : ∀ a, (![9, 0, 0] : Fin 3 → Nat) a + S1x64x64.size a ≤ S32x64x64.size a
  inb_S1000x32x64_S1000x1x64_0_10_0 : ∀ a, (![0, 10, 0] : Fin 3 → Nat) a + S1000x1x64.size a ≤ S1000x32x64.size a
  inb_S1000x32_S1000x1_0_10 : ∀ a, (![0, 10] : Fin 2 → Nat) a + S1000x1.size a ≤ S1000x32.size a
  inb_S32x64x64_S1x64x64_10_0_0 : ∀ a, (![10, 0, 0] : Fin 3 → Nat) a + S1x64x64.size a ≤ S32x64x64.size a
  inb_S1000x32x64_S1000x1x64_0_11_0 : ∀ a, (![0, 11, 0] : Fin 3 → Nat) a + S1000x1x64.size a ≤ S1000x32x64.size a
  inb_S1000x32_S1000x1_0_11 : ∀ a, (![0, 11] : Fin 2 → Nat) a + S1000x1.size a ≤ S1000x32.size a
  inb_S32x64x64_S1x64x64_11_0_0 : ∀ a, (![11, 0, 0] : Fin 3 → Nat) a + S1x64x64.size a ≤ S32x64x64.size a
  inb_S1000x32x64_S1000x1x64_0_12_0 : ∀ a, (![0, 12, 0] : Fin 3 → Nat) a + S1000x1x64.size a ≤ S1000x32x64.size a
  inb_S1000x32_S1000x1_0_12 : ∀ a, (![0, 12] : Fin 2 → Nat) a + S1000x1.size a ≤ S1000x32.size a
  inb_S32x64x64_S1x64x64_12_0_0 : ∀ a, (![12, 0, 0] : Fin 3 → Nat) a + S1x64x64.size a ≤ S32x64x64.size a
  inb_S1000x32x64_S1000x1x64_0_13_0 : ∀ a, (![0, 13, 0] : Fin 3 → Nat) a + S1000x1x64.size a ≤ S1000x32x64.size a
  inb_S1000x32_S1000x1_0_13 : ∀ a, (![0, 13] : Fin 2 → Nat) a + S1000x1.size a ≤ S1000x32.size a
  inb_S32x64x64_S1x64x64_13_0_0 : ∀ a, (![13, 0, 0] : Fin 3 → Nat) a + S1x64x64.size a ≤ S32x64x64.size a
  inb_S1000x32x64_S1000x1x64_0_14_0 : ∀ a, (![0, 14, 0] : Fin 3 → Nat) a + S1000x1x64.size a ≤ S1000x32x64.size a
  inb_S1000x32_S1000x1_0_14 : ∀ a, (![0, 14] : Fin 2 → Nat) a + S1000x1.size a ≤ S1000x32.size a
  inb_S32x64x64_S1x64x64_14_0_0 : ∀ a, (![14, 0, 0] : Fin 3 → Nat) a + S1x64x64.size a ≤ S32x64x64.size a
  inb_S1000x32x64_S1000x1x64_0_15_0 : ∀ a, (![0, 15, 0] : Fin 3 → Nat) a + S1000x1x64.size a ≤ S1000x32x64.size a
  inb_S1000x32_S1000x1_0_15 : ∀ a, (![0, 15] : Fin 2 → Nat) a + S1000x1.size a ≤ S1000x32.size a
  inb_S32x64x64_S1x64x64_15_0_0 : ∀ a, (![15, 0, 0] : Fin 3 → Nat) a + S1x64x64.size a ≤ S32x64x64.size a
  inb_S1000x32x64_S1000x1x64_0_16_0 : ∀ a, (![0, 16, 0] : Fin 3 → Nat) a + S1000x1x64.size a ≤ S1000x32x64.size a
  inb_S1000x32_S1000x1_0_16 : ∀ a, (![0, 16] : Fin 2 → Nat) a + S1000x1.size a ≤ S1000x32.size a
  inb_S32x64x64_S1x64x64_16_0_0 : ∀ a, (![16, 0, 0] : Fin 3 → Nat) a + S1x64x64.size a ≤ S32x64x64.size a
  inb_S1000x32x64_S1000x1x64_0_17_0 : ∀ a, (![0, 17, 0] : Fin 3 → Nat) a + S1000x1x64.size a ≤ S1000x32x64.size a
  inb_S1000x32_S1000x1_0_17 : ∀ a, (![0, 17] : Fin 2 → Nat) a + S1000x1.size a ≤ S1000x32.size a
  inb_S32x64x64_S1x64x64_17_0_0 : ∀ a, (![17, 0, 0] : Fin 3 → Nat) a + S1x64x64.size a ≤ S32x64x64.size a
  inb_S1000x32x64_S1000x1x64_0_18_0 : ∀ a, (![0, 18, 0] : Fin 3 → Nat) a + S1000x1x64.size a ≤ S1000x32x64.size a
  inb_S1000x32_S1000x1_0_18 : ∀ a, (![0, 18] : Fin 2 → Nat) a + S1000x1.size a ≤ S1000x32.size a
  inb_S32x64x64_S1x64x64_18_0_0 : ∀ a, (![18, 0, 0] : Fin 3 → Nat) a + S1x64x64.size a ≤ S32x64x64.size a
  inb_S1000x32x64_S1000x1x64_0_19_0 : ∀ a, (![0, 19, 0] : Fin 3 → Nat) a + S1000x1x64.size a ≤ S1000x32x64.size a
  inb_S1000x32_S1000x1_0_19 : ∀ a, (![0, 19] : Fin 2 → Nat) a + S1000x1.size a ≤ S1000x32.size a
  inb_S32x64x64_S1x64x64_19_0_0 : ∀ a, (![19, 0, 0] : Fin 3 → Nat) a + S1x64x64.size a ≤ S32x64x64.size a
  inb_S1000x32x64_S1000x1x64_0_20_0 : ∀ a, (![0, 20, 0] : Fin 3 → Nat) a + S1000x1x64.size a ≤ S1000x32x64.size a
  inb_S1000x32_S1000x1_0_20 : ∀ a, (![0, 20] : Fin 2 → Nat) a + S1000x1.size a ≤ S1000x32.size a
  inb_S32x64x64_S1x64x64_20_0_0 : ∀ a, (![20, 0, 0] : Fin 3 → Nat) a + S1x64x64.size a ≤ S32x64x64.size a
  inb_S1000x32x64_S1000x1x64_0_21_0 : ∀ a, (![0, 21, 0] : Fin 3 → Nat) a + S1000x1x64.size a ≤ S1000x32x64.size a
  inb_S1000x32_S1000x1_0_21 : ∀ a, (![0, 21] : Fin 2 → Nat) a + S1000x1.size a ≤ S1000x32.size a
  inb_S32x64x64_S1x64x64_21_0_0 : ∀ a, (![21, 0, 0] : Fin 3 → Nat) a + S1x64x64.size a ≤ S32x64x64.size a
  inb_S1000x32x64_S1000x1x64_0_22_0 : ∀ a, (![0, 22, 0] : Fin 3 → Nat) a + S1000x1x64.size a ≤ S1000x32x64.size a
  inb_S1000x32_S1000x1_0_22 : ∀ a, (![0, 22] : Fin 2 → Nat) a + S1000x1.size a ≤ S1000x32.size a
  inb_S32x64x64_S1x64x64_22_0_0 : ∀ a, (![22, 0, 0] : Fin 3 → Nat) a + S1x64x64.size a ≤ S32x64x64.size a
  inb_S1000x32x64_S1000x1x64_0_23_0 : ∀ a, (![0, 23, 0] : Fin 3 → Nat) a + S1000x1x64.size a ≤ S1000x32x64.size a
  inb_S1000x32_S1000x1_0_23 : ∀ a, (![0, 23] : Fin 2 → Nat) a + S1000x1.size a ≤ S1000x32.size a
  inb_S32x64x64_S1x64x64_23_0_0 : ∀ a, (![23, 0, 0] : Fin 3 → Nat) a + S1x64x64.size a ≤ S32x64x64.size a
  inb_S1000x32x64_S1000x1x64_0_24_0 : ∀ a, (![0, 24, 0] : Fin 3 → Nat) a + S1000x1x64.size a ≤ S1000x32x64.size a
  inb_S1000x32_S1000x1_0_24 : ∀ a, (![0, 24] : Fin 2 → Nat) a + S1000x1.size a ≤ S1000x32.size a
  inb_S32x64x64_S1x64x64_24_0_0 : ∀ a, (![24, 0, 0] : Fin 3 → Nat) a + S1x64x64.size a ≤ S32x64x64.size a
  inb_S1000x32x64_S1000x1x64_0_25_0 : ∀ a, (![0, 25, 0] : Fin 3 → Nat) a + S1000x1x64.size a ≤ S1000x32x64.size a
  inb_S1000x32_S1000x1_0_25 : ∀ a, (![0, 25] : Fin 2 → Nat) a + S1000x1.size a ≤ S1000x32.size a
  inb_S32x64x64_S1x64x64_25_0_0 : ∀ a, (![25, 0, 0] : Fin 3 → Nat) a + S1x64x64.size a ≤ S32x64x64.size a
  inb_S1000x32x64_S1000x1x64_0_26_0 : ∀ a, (![0, 26, 0] : Fin 3 → Nat) a + S1000x1x64.size a ≤ S1000x32x64.size a
  inb_S1000x32_S1000x1_0_26 : ∀ a, (![0, 26] : Fin 2 → Nat) a + S1000x1.size a ≤ S1000x32.size a
  inb_S32x64x64_S1x64x64_26_0_0 : ∀ a, (![26, 0, 0] : Fin 3 → Nat) a + S1x64x64.size a ≤ S32x64x64.size a
  inb_S1000x32x64_S1000x1x64_0_27_0 : ∀ a, (![0, 27, 0] : Fin 3 → Nat) a + S1000x1x64.size a ≤ S1000x32x64.size a
  inb_S1000x32_S1000x1_0_27 : ∀ a, (![0, 27] : Fin 2 → Nat) a + S1000x1.size a ≤ S1000x32.size a
  inb_S32x64x64_S1x64x64_27_0_0 : ∀ a, (![27, 0, 0] : Fin 3 → Nat) a + S1x64x64.size a ≤ S32x64x64.size a
  inb_S1000x32x64_S1000x1x64_0_28_0 : ∀ a, (![0, 28, 0] : Fin 3 → Nat) a + S1000x1x64.size a ≤ S1000x32x64.size a
  inb_S1000x32_S1000x1_0_28 : ∀ a, (![0, 28] : Fin 2 → Nat) a + S1000x1.size a ≤ S1000x32.size a
  inb_S32x64x64_S1x64x64_28_0_0 : ∀ a, (![28, 0, 0] : Fin 3 → Nat) a + S1x64x64.size a ≤ S32x64x64.size a
  inb_S1000x32x64_S1000x1x64_0_29_0 : ∀ a, (![0, 29, 0] : Fin 3 → Nat) a + S1000x1x64.size a ≤ S1000x32x64.size a
  inb_S1000x32_S1000x1_0_29 : ∀ a, (![0, 29] : Fin 2 → Nat) a + S1000x1.size a ≤ S1000x32.size a
  inb_S32x64x64_S1x64x64_29_0_0 : ∀ a, (![29, 0, 0] : Fin 3 → Nat) a + S1x64x64.size a ≤ S32x64x64.size a
  inb_S1000x32x64_S1000x1x64_0_30_0 : ∀ a, (![0, 30, 0] : Fin 3 → Nat) a + S1000x1x64.size a ≤ S1000x32x64.size a
  inb_S1000x32_S1000x1_0_30 : ∀ a, (![0, 30] : Fin 2 → Nat) a + S1000x1.size a ≤ S1000x32.size a
  inb_S32x64x64_S1x64x64_30_0_0 : ∀ a, (![30, 0, 0] : Fin 3 → Nat) a + S1x64x64.size a ≤ S32x64x64.size a
  inb_S1000x32x64_S1000x1x64_0_31_0 : ∀ a, (![0, 31, 0] : Fin 3 → Nat) a + S1000x1x64.size a ≤ S1000x32x64.size a
  inb_S1000x32_S1000x1_0_31 : ∀ a, (![0, 31] : Fin 2 → Nat) a + S1000x1.size a ≤ S1000x32.size a
  inb_S32x64x64_S1x64x64_31_0_0 : ∀ a, (![31, 0, 0] : Fin 3 → Nat) a + S1x64x64.size a ≤ S32x64x64.size a
  inb_S1x64_S1x64_0_0 : ∀ a, (![0, 0] : Fin 2 → Nat) a + S1x64.size a ≤ S1x64.size a
  h_S1x64 : 0 < S1x64.numel
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  gather_S50000x64_S50000x32x1_S50000x32x64_2_0_n_n_0_2_164_wf : GatherDims.WF S50000x64 S50000x32x1 S50000x32x64 [2] [0] [] [0] [] 2 ![1, 64]
  gather_S50000x3_S50000x32x1_S50000x32x3_2_0_n_n_0_2_13_wf : GatherDims.WF S50000x3 S50000x32x1 S50000x32x3 [2] [0] [] [0] [] 2 ![1, 3]
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32x64.size a ≤ S50000x32x64.size a
  hwx0_0 : ∀ i : grid0.Coords, EltTy.bits .f32 = 32 ∨ (Rect.block (s := S50000x32x64) S1000x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32.size a ≤ S50000x32.size a
  hwx0_1 : ∀ i : grid0.Coords, EltTy.bits .f32 = 32 ∨ (Rect.block (s := S50000x32) S1000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64x64.size a ≤ S32x64x64.size a
  hwx0_2 : ∀ i : grid0.Coords, EltTy.bits .f32 = 32 ∨ (Rect.block (s := S32x64x64) S32x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S50000x64.size a
  hwx0_4 : ∀ i : grid0.Coords, EltTy.bits .f32 = 32 ∨ (Rect.block (s := S50000x64) S1000x64.size (cc0_transform_4 i) (hinb0_4 i)).WholeWords (EltTy.packing .f32)

variable [Facts₀]

def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x3_S50000x32x1_S50000x32x3_2_0_n_n_0_2_13 : GatherDims S50000x3 S50000x32x1 S50000x32x3 where
  offsetDims := [2]
  collapsedSliceDims := [0]
  operandBatchingDims := []
  startIndicesBatchingDims := []
  startIndexMap := [0]
  indexVectorDim := 2
  sliceSizes := ![1, 3]
  wf := gather_S50000x3_S50000x32x1_S50000x32x3_2_0_n_n_0_2_13_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_v6) S1000x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S32x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S50000x32 : Shape := ⟨2, ![50000, 32]⟩
abbrev S2048x64 : Shape := ⟨2, ![2048, 64]⟩
abbrev S1x64 : Shape := ⟨2, ![1, 64]⟩
abbrev S_ : Shape := ⟨0, ![]⟩
abbrev S50000x32x1 : Shape := ⟨3, ![50000, 32, 1]⟩
abbrev S50000x32x64 : Shape := ⟨3, ![50000, 32, 64]⟩
abbrev S50000x1x3 : Shape := ⟨3, ![50000, 1, 3]⟩
abbrev S50000x32x3 : Shape := ⟨3, ![50000, 32, 3]⟩
abbrev S50000x2048 : Shape := ⟨2, ![50000, 2048]⟩

abbrev nBuf : Space → Nat
  | .hbm => 59
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S50000x32, .i32⟩
  | .hbm, ⟨3, _⟩ => ⟨S2048x64, .f32⟩
  | .hbm, ⟨4, _⟩ => ⟨S1x64, .f32⟩
  | .hbm, ⟨5, _⟩ => ⟨S_, .i32⟩
  | .hbm, ⟨6, _⟩ => ⟨S50000x32, .i32⟩
  | .hbm, ⟨7, _⟩ => ⟨S50000x32, .i1⟩
  | .hbm, ⟨8, _⟩ => ⟨S_, .i32⟩
  | .hbm, ⟨9, _⟩ => ⟨S50000x32, .i32⟩
  | .hbm, ⟨10, _⟩ => ⟨S50000x32, .i32⟩
  | .hbm, ⟨11, _⟩ => ⟨S50000x32, .i32⟩
  | .hbm, ⟨12, _⟩ => ⟨S50000x32x1, .i32⟩
  | .hbm, ⟨13, _⟩ => ⟨S50000x32x64, .f32⟩
  | .hbm, ⟨14, _⟩ => ⟨S50000x1x3, .f32⟩
  | .hbm, ⟨15, _⟩ => ⟨S_, .i32⟩
  | .hbm, ⟨16, _⟩ => ⟨S50000x32, .i32⟩
  | .hbm, ⟨17, _⟩ => ⟨S50000x32, .i1⟩
  | .hbm, ⟨18, _⟩ => ⟨S_, .i32⟩
  | .hbm, ⟨19, _⟩ => ⟨S50000x32, .i32⟩
  | .hbm, ⟨20, _⟩ => ⟨S50000x32, .i32⟩
  | .hbm, ⟨21, _⟩ => ⟨S50000x32, .i32⟩
  | .hbm, ⟨22, _⟩ => ⟨S50000x32x1, .i32⟩
  | .hbm, ⟨23, _⟩ => ⟨S50000x32x3, .f32⟩
  | .hbm, ⟨24, _⟩ => ⟨S50000x32x3, .f32⟩
  | .hbm, ⟨25, _⟩ => ⟨S50000x32x3, .f32⟩
  | .hbm, ⟨26, _⟩ => ⟨S50000x32x3, .f32⟩
  | .hbm, ⟨27, _⟩ => ⟨S_, .f32⟩
  | .hbm, ⟨28, _⟩ => ⟨S50000x32, .f32⟩
  | .hbm, ⟨29, _⟩ => ⟨S50000x32x1, .f32⟩
  | .hbm, ⟨30, _⟩ => ⟨S_, .f32⟩
  | .hbm, ⟨31, _⟩ => ⟨S50000x32x1, .f32⟩
  | .hbm, ⟨32, _⟩ => ⟨S50000x32x1, .i1⟩
  | .hbm, ⟨33, _⟩ => ⟨S_, .f32⟩
  | .hbm, ⟨34, _⟩ => ⟨S50000x32x1, .f32⟩
  | .hbm, ⟨35, _⟩ => ⟨S50000x32x1, .i1⟩
  | .hbm, ⟨36, _⟩ => ⟨S_, .f32⟩
  | .hbm, ⟨37, _⟩ => ⟨S_, .f32⟩
  | .hbm, ⟨38, _⟩ => ⟨S50000x32x1, .f32⟩
  | .hbm, ⟨39, _⟩ => ⟨S50000x32x1, .f32⟩
  | .hbm, ⟨40, _⟩ => ⟨S50000x32x1, .f32⟩
  | .hbm, ⟨41, _⟩ => ⟨S_, .f32⟩
  | .hbm, ⟨42, _⟩ => ⟨S_, .f32⟩
  | .hbm, ⟨43, _⟩ => ⟨S50000x32x1, .f32⟩
  | .hbm, ⟨44, _⟩ => ⟨S50000x32x1, .f32⟩
  | .hbm, ⟨45, _⟩ => ⟨S50000x32x64, .f32⟩
  | .hbm, ⟨46, _⟩ => ⟨S50000x32x64, .f32⟩
  | .hbm, ⟨47, _⟩ => ⟨S50000x2048, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S_, .f32⟩
  | .hbm, ⟨53, _⟩ => ⟨S50000x64, .f32⟩
  | .hbm, ⟨54, _⟩ => ⟨S50000x64, .i1⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S50000x3_S50000x1x3_0_2 : S50000x3.BroadcastsInDim S50000x1x3 (![0, 2] : Fin 2 → Fin S50000x1x3.rank)
  bcast_S50000x1x3_S50000x32x3_0_1_2 : S50000x1x3.BroadcastsInDim S50000x32x3 (![0, 1, 2] : Fin 3 → Fin S50000x32x3.rank)
  reducesTo_S50000x32x3_S50000x32_d2 : S50000x32x3.ReducesTo [2] S50000x32
  h_S_ : 0 < S_.numel
  bcast_S_S50000x32x1 : S_.BroadcastsInDim S50000x32x1 (![] : Fin 0 → Fin S50000x32x1.rank)
  bcast_S50000x32x1_S50000x32x64_0_1_2 : S50000x32x1.BroadcastsInDim S50000x32x64 (![0, 1, 2] : Fin 3 → Fin S50000x32x64.rank)
  shapeCasts_S50000x32x64_S50000x2048 : S50000x32x64.ShapeCasts S50000x2048
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x64_S50000x32x1_S50000x32x64_2_0_n_n_0_2_164_wf : GatherDims.WF S50000x64 S50000x32x1 S50000x32x64 [2] [0] [] [0] [] 2 ![1, 64]
  gather_S50000x3_S50000x32x1_S50000x32x3_2_0_n_n_0_2_13_wf : GatherDims.WF S50000x3 S50000x32x1 S50000x32x3 [2] [0] [] [0] [] 2 ![1, 3]
  dot_S50000x2048_S2048x64_S50000x64_1_0_0_1_n_n_wf : DotDims.WF S50000x2048 S2048x64 S50000x64 [1] [0] [0] [1] [] []

variable [Facts₀]

def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x3_S50000x32x1_S50000x32x3_2_0_n_n_0_2_13 : GatherDims S50000x3 S50000x32x1 S50000x32x3 where
  offsetDims := [2]
  collapsedSliceDims := [0]
  operandBatchingDims := []
  startIndicesBatchingDims := []
  startIndexMap := [0]
  indexVectorDim := 2
  sliceSizes := ![1, 3]
  wf := gather_S50000x3_S50000x32x1_S50000x32x3_2_0_n_n_0_2_13_wf
def dot_S50000x2048_S2048x64_S50000x64_1_0_0_1_n_n : DotDims S50000x2048 S2048x64 S50000x64 where
  lhsContracting := [1]
  rhsContracting := [0]
  lhsNonContracting := [0]
  rhsNonContracting := [1]
  lhsBatch := []
  rhsBatch := []
  wf := dot_S50000x2048_S2048x64_S50000x64_1_0_0_1_n_n_wf

class Facts : Prop extends Facts₀ where

variable [Facts]
-- ==== Proof.Spec.lean ====
/-
  The common value of the two programs, as one function of four arrays, index by index, on the extended reals.

  With M the gathered neighbour features [n, k, f], Q the squared neighbour distances [n, k], W the weight matrix
  [k·64 + f, o] and B the bias row [0, o], the result at (n, o) is

      act ( Σ_k Σ_f  M[n,k,f] / dist(Q[n,k]) · W[k·64+f, o]  +  B[0,o] )

  where dist s = (if s = 0 then 1/2 else √(if s = 0 then 1 else s)) and act x = (if x ≥ 0 then x else c·x), c the
  slope's float word.  The kernel reaches it as 32 partial products summed left to right from zero, the reference as
  one contraction over the 2048 pairs (k, f) in row-major order: the two sums differ only by the association and
  grouping of a finite sum in a commutative monoid (the extended reals under +), so no finiteness is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SNF : Shape := ⟨2, ![50000, 64]⟩
abbrev SNK : Shape := ⟨2, ![50000, 32]⟩
abbrev SNKF : Shape := ⟨3, ![50000, 32, 64]⟩
abbrev SW : Shape := ⟨2, ![2048, 64]⟩
abbrev SB : Shape := ⟨2, ![1, 64]⟩

/-- The neighbour distance from its square: a zero square gives one half, otherwise the square root (taken of one
    where the square is zero, which the outer choice then discards). -/
def dist (s : EReal) : EReal :=
  Scalar.select (Ideal.cmp .oeq s (Ideal.ofBits .f32 0x00000000#32)) (Ideal.ofBits .f32 0x3F000000#32)
    (FloatOps.hostUnary (F := Ideal) (φ := .f32) .sqrt
      (Scalar.select (Ideal.cmp .oeq s (Ideal.ofBits .f32 0x00000000#32)) (Ideal.ofBits .f32 0x3F800000#32) s))

/-- The activation: the identity on the non-negative, the slope's multiple below zero. -/
def act (x : EReal) : EReal :=
  Scalar.select (Ideal.cmp .oge x (Ideal.ofBits .f32 0x00000000#32)) x (Ideal.ofBits .f32 0x3C23D70A#32 * x)

/-- Row k·64 + f of the weight matrix: the pair (k, f) in row-major order. -/
def wrow (k : Fin 32) (f : Fin 64) : Fin 2048 := ⟨k.val * 64 + f.val, by omega⟩

/-- One neighbour's contribution to output (n, o): its 64 features, each divided by the distance, against the
    neighbour's 64 weight rows. -/
def term (M : SNKF.Idx → EReal) (Q : SNK.Idx → EReal) (W : SW.Idx → EReal) (n : Fin 50000) (o : Fin 64) (k : Fin 32) : EReal :=
  ∑ f : Fin 64, Ideal.div (M (ix3 n k f)) (dist (Q (ix2 n k))) * W (ix2 (wrow k f) o)

/-- The result array. -/
def out (M : SNKF.Idx → EReal) (Q : SNK.Idx → EReal) (W : SW.Idx → EReal) (B : SB.Idx → EReal) : SNF.Idx → EReal :=
  fun i => act ((∑ k : Fin 32, term M Q W (i 0) (i 1) k) + B (ix2 0 (i 1)))

theorem out_apply (M : SNKF.Idx → EReal) (Q : SNK.Idx → EReal) (W : SW.Idx → EReal) (B : SB.Idx → EReal)
    (n : Fin 50000) (o : Fin 64) :
    out M Q W B (ix2 n o) = act ((∑ k : Fin 32, term M Q W n o k) + B (ix2 0 o)) := rfl

/-- A sum over the 2048 rows is the sum over the 32 neighbours of the sums over their 64 rows. -/
theorem sum_rows {α : Type*} [AddCommMonoid α] (g : Fin 2048 → α) :
    ∑ j : Fin 2048, g j = ∑ k : Fin 32, ∑ f : Fin 64, g (wrow k f) := by
  rw [← Finset.sum_product']
  refine (Fintype.sum_equiv (finProdFinEquiv (m := 32) (n := 64)) _ _ fun p => ?_).symm
  obtain ⟨k, f⟩ := p
  refine congrArg g (Fin.ext ?_)
  show k.val * 64 + f.val = f.val + 64 * k.val
  omega

/-- The 32 terms summed left to right from zero. -/
def acc32 {α : Type*} [AddCommMonoid α] (t : Fin 32 → α) : α :=
  0 + t 0 + t 1 + t 2 + t 3 + t 4 + t 5 + t 6 + t 7 + t 8 + t 9 + t 10 + t 11 + t 12 + t 13 + t 14 + t 15
    + t 16 + t 17 + t 18 + t 19 + t 20 + t 21 + t 22 + t 23 + t 24 + t 25 + t 26 + t 27 + t 28 + t 29 + t 30 + t 31

theorem acc32_eq_sum {α : Type*} [AddCommMonoid α] (t : Fin 32 → α) : acc32 t = ∑ k : Fin 32, t k := by
  unfold acc32
  simp only [Fin.sum_univ_castSucc, Fin.sum_univ_zero]
  rfl

end Cert.Spec

end
-- ==== Proof.KernelBody.lean ====
/-
  What the kernel's body leaves in its output block, entry by entry.

  The body reads, for each neighbour k = 0 … 31, the feature slab [·, k, ·] of the feature block, the distance column
  [·, k] of the distance block and the weight slab [k, ·, ·]; divides the slab by the column (broadcast along the
  features), multiplies the quotient into the weight slab (a 64-long contraction into a zero accumulator; the changes
  of float format in between are the identity on the extended reals) and adds the product to a running sum that
  starts at zero; then adds the bias row and applies the activation.  So entry (r, o) of the block is

      act ( ((0 + t 0) + t 1) + … + t 31  +  bias[0, o] ),   t k = Σ_f  feat[r,k,f] / dist[r,k] · w[k,f,o].
-/
import proofs.«148729_j70523363000699_1_alg».proof.Proof.Gen.KernelIdeal.Frame
import proofs.«148729_j70523363000699_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe
open Idealize.ShloMosaic.ValueIdx

/-! ## The body's loads: slab k of each block, read at a slab index -/

/-- The feature slab of neighbour k, at row r and feature f, is the block's entry (r, k, f). -/
theorem ld_feat (x0 : Vec Ideal S1000x32x64 .f32) (k : ℕ)
    (h : ∀ a, (![0, k, 0] : Fin 3 → ℕ) a + S1000x1x64.size a ≤ S1000x32x64.size a) (hk : k < 32) (r : Fin 1000) (f : Fin 64) :
    View.ld x0 (Rect.unit (s := S1000x32x64) ![0, k, 0] S1000x1x64.size h) (ix3 r 0 f) = x0 (ix3 r ⟨k, hk⟩ f) := by
  show x0 _ = x0 _
  refine congrArg x0 (funext fun a => Fin.ext ?_)
  match a with
  | ⟨0, _⟩ => show 0 + 1 * r.val = r.val; omega
  | ⟨1, _⟩ => show k + 1 * (0 : Fin 1).val = k; simp
  | ⟨2, _⟩ => show 0 + 1 * f.val = f.val; omega

/-- The distance column of neighbour k, at row r, is the block's entry (r, k). -/
theorem ld_dist (x1 : Vec Ideal S1000x32 .f32) (k : ℕ)
    (h : ∀ a, (![0, k] : Fin 2 → ℕ) a + S1000x1.size a ≤ S1000x32.size a) (hk : k < 32) (r : Fin 1000) :
    View.ld x1 (Rect.unit (s := S1000x32) ![0, k] S1000x1.size h) (ix2 r 0) = x1 (ix2 r ⟨k, hk⟩) := by
  show x1 _ = x1 _
  refine congrArg x1 (funext fun a => Fin.ext ?_)
  match a with
  | ⟨0, _⟩ => show 0 + 1 * r.val = r.val; omega
  | ⟨1, _⟩ => show k + 1 * (0 : Fin 1).val = k; simp

/-- The weight slab of neighbour k, at feature f and output o, is the block's entry (k, f, o). -/
theorem ld_w (x2 : Vec Ideal S32x64x64 .f32) (k : ℕ)
    (h : ∀ a, (![k, 0, 0] : Fin 3 → ℕ) a + S1x64x64.size a ≤ S32x64x64.size a) (hk : k < 32) (f o : Fin 64) :
    View.ld x2 (Rect.unit (s := S32x64x64) ![k, 0, 0] S1x64x64.size h) (ix3 0 f o) = x2 (ix3 ⟨k, hk⟩ f o) := by
  show x2 _ = x2 _
  refine congrArg x2 (funext fun a => Fin.ext ?_)
  match a with
  | ⟨0, _⟩ => show k + 1 * (0 : Fin 1).val = k; simp
  | ⟨1, _⟩ => show 0 + 1 * f.val = f.val; omega
  | ⟨2, _⟩ => show 0 + 1 * o.val = o.val; omega

/-! ## The re-layings between a load and the arithmetic -/

/-- A [1000, 1, 64] slab read as [1000, 64]. -/
theorem sc_feat (v : Vec Ideal S1000x1x64 .f32) (h : S1000x1x64.ShapeCasts S1000x64) (r : Fin 1000) (f : Fin 64) :
    shapeCast S1000x64 v h (ix2 r f) = v (ix3 r 0 f) := by
  refine shapeCast_apply v h (ix2 r f) (ix3 r 0 f) ?_
  rw [Shape.rowMajor_val_three, Shape.rowMajor_val_two]
  show (r.val * 1 + (0 : Fin 1).val) * 64 + f.val = r.val * 64 + f.val
  simp

/-- A [1000, 1] column, cast to its own shape and broadcast along the 64 features. -/
theorem bc_dist (d : Vec Ideal S1000x1 .f32) (h : S1000x1.ShapeCasts S1000x1) (h' : S1000x1.Broadcasts S1000x64)
    (r : Fin 1000) (f : Fin 64) :
    broadcastTo S1000x64 (shapeCast S1000x1 d h) h' (ix2 r f) = d (ix2 r 0) := by
  rw [shapeCast_self]
  refine broadcastTo_apply d h' (ix2 r f) (ix2 r 0) fun a => ?_
  match a with
  | ⟨0, _⟩ => rfl
  | ⟨1, _⟩ => rfl

/-- A [1, 64, 64] slab read as [64, 64]. -/
theorem sc_w (w : Vec Ideal S1x64x64 .f32) (h : S1x64x64.ShapeCasts S64x64) (f o : Fin 64) :
    shapeCast S64x64 w h (ix2 f o) = w (ix3 0 f o) := by
  refine shapeCast_apply w h (ix2 f o) (ix3 0 f o) ?_
  rw [Shape.rowMajor_val_three, Shape.rowMajor_val_two]
  show ((0 : Fin 1).val * 64 + f.val) * 64 + o.val = f.val * 64 + o.val
  simp

/-- The bias row broadcast down the 1000 rows. -/
theorem bc_bias (b : Vec Ideal S1x64 .f32) (h : S1x64.Broadcasts S1000x64) (r : Fin 1000) (o : Fin 64) :
    broadcastTo S1000x64 b h (ix2 r o) = b (ix2 0 o) := by
  refine broadcastTo_apply b h (ix2 r o) (ix2 0 o) fun a => ?_
  match a with
  | ⟨0, _⟩ => rfl
  | ⟨1, _⟩ => rfl

/-! ## One neighbour's product: a 64-long contraction into a zero accumulator -/

/-- The product's dimension numbers: rows × features against features × outputs. -/
abbrev Dmm : DotDims S1000x64 S64x64 S1000x64 := dot_S1000x64_S64x64_S1000x64_1_0_0_1_n_n

theorem Dmm_lhs_0 (j : S1000x64.Idx) (k : Dmm.contr.Idx) : (Dmm.lhsIdx j k 0 : ℕ) = j 0 := by
  simp [DotDims.lhsIdx, Dmm, dot_S1000x64_S64x64_S1000x64_1_0_0_1_n_n]; rfl
theorem Dmm_lhs_1 (j : S1000x64.Idx) (k : Dmm.contr.Idx) : (Dmm.lhsIdx j k 1 : ℕ) = k ⟨0, by decide⟩ := by
  simp [DotDims.lhsIdx, Dmm, dot_S1000x64_S64x64_S1000x64_1_0_0_1_n_n]; rfl
theorem Dmm_rhs_0 (j : S1000x64.Idx) (k : Dmm.contr.Idx) : (Dmm.rhsIdx j k 0 : ℕ) = k ⟨0, by decide⟩ := by
  simp [DotDims.rhsIdx, Dmm, dot_S1000x64_S64x64_S1000x64_1_0_0_1_n_n]; rfl
theorem Dmm_rhs_1 (j : S1000x64.Idx) (k : Dmm.contr.Idx) : (Dmm.rhsIdx j k 1 : ℕ) = j 1 := by
  simp [DotDims.rhsIdx, Dmm, dot_S1000x64_S64x64_S1000x64_1_0_0_1_n_n]; rfl

/-- The product into the zero accumulator, at (r, o), is the sum over the 64 features of row r of the left factor
    against column o of the right one. -/
theorem mm_apply (q : FVec Ideal S1000x64 .bf16) (w : FVec Ideal S64x64 .bf16) (r : Fin 1000) (o : Fin 64) :
    matmul dot_S1000x64_S64x64_S1000x64_1_0_0_1_n_n none q w (constant S1000x64 .f32 0x00000000#32) (ix2 r o)
      = ∑ f : Fin 64, q (ix2 r f) * w (ix2 f o) := by
  show FloatOps.matmul Dmm none q w (constant S1000x64 .f32 0x00000000#32) (ix2 r o) = _
  rw [Ideal.matmul_constant_zero_apply, ← Equiv.sum_comp (contrEquiv1 Dmm 64 rfl rfl).symm]
  refine Finset.sum_congr rfl fun f _ => ?_
  congr 2
  · apply Shape.idx_ext₂
    · exact Dmm_lhs_0 _ _
    · exact (Dmm_lhs_1 _ _).trans (contrEquiv1_symm_val Dmm 64 rfl rfl f)
  · apply Shape.idx_ext₂
    · exact (Dmm_rhs_0 _ _).trans (contrEquiv1_symm_val Dmm 64 rfl rfl f)
    · exact Dmm_rhs_1 _ _

/-! ## The output block -/

theorem zero2 : (![0, 0] : Fin 2 → Nat) = fun _ => 0 := funext fun a => by fin_cases a <;> rfl

/-- One neighbour's contribution to entry (r, o) of the output block, from the three input blocks. -/
def contrib (x0 : Vec Ideal S1000x32x64 .f32) (x1 : Vec Ideal S1000x32 .f32) (x2 : Vec Ideal S32x64x64 .f32)
    (r : Fin 1000) (o : Fin 64) (k : Fin 32) : EReal :=
  ∑ f : Fin 64, Ideal.div (x0 (ix3 r k f)) (x1 (ix2 r k)) * x2 (ix3 k f o)

/-- A slab offset inside the feature block names a neighbour. -/
theorem slab_lt (k : ℕ) (h : ∀ a, (![0, k, 0] : Fin 3 → ℕ) a + S1000x1x64.size a ≤ S1000x32x64.size a) : k < 32 := by
  have := h 1
  simp at this
  omega

/-- Neighbour k's step of the body, as a [1000, 64] array: the slab's quotient by the column, against the weight
    slab, is the neighbour's contribution at every entry. -/
theorem step_eq (x0 : Vec Ideal S1000x32x64 .f32) (x1 : Vec Ideal S1000x32 .f32) (x2 : Vec Ideal S32x64x64 .f32) (k : ℕ)
    (h0 : ∀ a, (![0, k, 0] : Fin 3 → ℕ) a + S1000x1x64.size a ≤ S1000x32x64.size a)
    (h1 : ∀ a, (![0, k] : Fin 2 → ℕ) a + S1000x1.size a ≤ S1000x32.size a)
    (h2 : ∀ a, (![k, 0, 0] : Fin 3 → ℕ) a + S1x64x64.size a ≤ S32x64x64.size a)
    (c0 : S1000x1x64.ShapeCasts S1000x64) (c1 : S1000x1.ShapeCasts S1000x1) (b1 : S1000x1.Broadcasts S1000x64)
    (c2 : S1x64x64.ShapeCasts S64x64) (l0 : FTy.bf16.bits < FTy.f32.bits) (l2 : FTy.bf16.bits < FTy.f32.bits) :
    (matmul dot_S1000x64_S64x64_S1000x64_1_0_0_1_n_n none
        (truncf .bf16 (divf (shapeCast S1000x64 (View.ld x0 (Rect.unit (s := S1000x32x64) ![0, k, 0] S1000x1x64.size h0)) c0)
          (broadcastTo S1000x64 (shapeCast S1000x1 (View.ld x1 (Rect.unit (s := S1000x32) ![0, k] S1000x1.size h1)) c1) b1)) l0)
        (truncf .bf16 (shapeCast S64x64 (View.ld x2 (Rect.unit (s := S32x64x64) ![k, 0, 0] S1x64x64.size h2)) c2) l2)
        (constant (F := Ideal) S1000x64 .f32 0x00000000#32) : FVec Ideal S1000x64 .f32)
      = fun j : S1000x64.Idx => contrib x0 x1 x2 (j 0) (j 1) ⟨k, slab_lt k h0⟩ := by
  funext j
  obtain ⟨r, o, rfl⟩ : ∃ (r : Fin 1000) (o : Fin 64), j = ix2 r o := ⟨j 0, j 1, eq_ix2 j⟩
  rw [mm_apply]
  show _ = contrib x0 x1 x2 r o ⟨k, slab_lt k h0⟩
  unfold contrib
  refine Finset.sum_congr rfl fun f _ => ?_
  rw [truncf_apply, divf_apply, truncf_apply, sc_feat, bc_dist, sc_w, ld_feat x0 k h0 (slab_lt k h0), ld_dist x1 k h1 (slab_lt k h0),
    ld_w x2 k h2 (slab_lt k h0)]

/-- The bias row, loaded whole and broadcast down the rows, at (r, o). -/
theorem bias_at (x3 : Vec Ideal S1x64 .f32) (h : ∀ a, (![0, 0] : Fin 2 → ℕ) a + S1x64.size a ≤ S1x64.size a)
    (hb : S1x64.Broadcasts S1000x64) (r : Fin 1000) (o : Fin 64) :
    broadcastTo S1000x64 (View.ld x3 (Rect.unit (s := S1x64) ![0, 0] S1x64.size h)) hb (ix2 r o) = x3 (ix2 0 o) := by
  rw [View.ld_unit_zero zero2, bc_bias]

set_option maxRecDepth 16384 in
set_option maxHeartbeats 4000000 in
/-- Entry (r, o) of what the body leaves in the output block: the activation of the 32 contributions summed left to
    right from zero, plus the bias. -/
theorem out0_4_apply (x0 : Vec Ideal S1000x32x64 .f32) (x1 : Vec Ideal S1000x32 .f32) (x2 : Vec Ideal S32x64x64 .f32)
    (x3 : Vec Ideal S1x64 .f32) (r : Fin 1000) (o : Fin 64) :
    out0_4 (F := Ideal) x0 x1 x2 x3 (ix2 r o)
      = Cert.Spec.act (Cert.Spec.acc32 (contrib x0 x1 x2 r o) + x3 (ix2 0 o)) := by
  unfold out0_4
  rw [View.canon_unit_zero zero2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [r0_0, r0_1, r0_2, r0_3, r0_4, r0_5, r0_6, r0_7, r0_8, r0_9, r0_10, r0_11, r0_12, r0_13, r0_14, r0_15, r0_16, r0_17, r0_18, r0_19, r0_20, r0_21, r0_22, r0_23, r0_24, r0_25, r0_26, r0_27, r0_28, r0_29, r0_30, r0_31, r0_32, r0_33, r0_34, r0_35, r0_36, r0_37, r0_38, r0_39, r0_40, r0_41, r0_42, r0_43, r0_44, r0_45, r0_46, r0_47, r0_48, r0_49, r0_50, r0_51, r0_52, r0_53, r0_54, r0_55, r0_56, r0_57, r0_58, r0_59, r0_60, r0_61, r0_62, r0_63, r0_64, r0_65, r0_66, r0_67, r0_68, r0_69, r0_70, r0_71, r0_72, r0_73, r0_74, r0_75, r0_76, r0_77, r0_78, r0_79, r0_80, r0_81, r0_82, r0_83, r0_84, r0_85, r0_86, r0_87, r0_88, r0_89, r0_90, r0_91, r0_92, r0_93, r0_94, r0_95, r0_96, r0_97, step_eq]
  simp only [select_apply, cmpf_apply, mulf_apply, addf_apply, broadcast_apply]
  rw [bias_at]
  unfold Cert.Spec.act Cert.Spec.acc32
  have hzero : (FloatOps.ofBits FTy.f32 0#32 : Ideal .f32) = (0 : EReal) := Ideal.ofBits_zero_f32
  simp only [hzero, Ideal.ofBits_zero_f32]
  rfl

end Cert.KernelIdeal.Hand

end
-- ==== Proof.KernelHost.lean ====
/-
  What the kernel's host operations leave in the three arrays its region reads besides the bias: the gathered features,
  the neighbour distances, and the weight matrix re-laid as [k, f, o].
-/
import proofs.«148729_j70523363000699_1_alg».proof.Proof.Gen.KernelIdeal.Frame
import proofs.«148729_j70523363000699_1_alg».proof.Proof.Spec
import Idealize.ShloMosaic.Lib.StableHlo.Run
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The neighbour indices with the negative ones wrapped by the table's length, as a column of index vectors. -/
def wrap (idx : IVec S50000x32 32) : IVec S50000x32x1 32 :=
  broadcastInDim S50000x32x1 ![0, 1] Facts₀.bcast_S50000x32_S50000x32x1_0_1
    (select (cmpi .slt idx (broadcastInDim S50000x32 ![] Facts₀.bcast_S_S50000x32 (constantI S_ 32 0#32)))
      (addi idx (broadcastInDim S50000x32 ![] Facts₀.bcast_S_S50000x32 (constantI S_ 32 50000#32))) idx)

/-- The gathered neighbour features [n, k, f]: row (wrapped index [n, k]) of the feature table. -/
def msgs (h : FVec Ideal S50000x64 .f32) (idx : IVec S50000x32 32) : FVec Ideal S50000x32x64 .f32 :=
  Host.gather gather_S50000x64_S50000x32x1_S50000x32x64_2_0_n_n_0_2_164 h (wrap idx)

/-- The difference of a point's position and its neighbour's, per coordinate [n, k, p]. -/
def diff (pos : FVec Ideal S50000x3 .f32) (idx : IVec S50000x32 32) : FVec Ideal S50000x32x3 .f32 :=
  subf (broadcastInDim S50000x32x3 ![0, 1, 2] Facts₀.bcast_S50000x1x3_S50000x32x3_0_1_2
      (broadcastInDim S50000x1x3 ![0, 2] Facts₀.bcast_S50000x3_S50000x1x3_0_2 pos))
    (Host.gather gather_S50000x3_S50000x32x1_S50000x32x3_2_0_n_n_0_2_13 pos (wrap idx))

/-- The squared neighbour distances [n, k]: the sum over the three coordinates of the squared differences. -/
def sq (pos : FVec Ideal S50000x3 .f32) (idx : IVec S50000x32 32) : FVec Ideal S50000x32 .f32 :=
  Host.reduceAdd (mulf (diff pos idx) (diff pos idx)) (constant S_ .f32 0x00000000#32) Facts₀.reducesTo_S50000x32x3_S50000x32_d2 Facts₀.h_S_

/-- The first window's array, as the region finds it, is the gathered features. -/
theorem V_msgs (c : Dev nD) :
    (V m c main_v6 : S50000x32x64.Idx → EReal)
      = msgs (m ((c.tc : Thread nD τ).loc main_arg0)) (m ((c.tc : Thread nD τ).loc main_arg2)) := by
  -- Each operation's result at its own buffer is its function of its operands' contents, and every other buffer is
  -- left as it was; read back from the gather to the launched arrays, the composed term is `msgs` itself.
  dsimp only [Gen.V]
  simp only [hostOps0, hostOps0_1, hostOps0_2, hostOps0_3, hostOps0_4, List.flatten_cons, List.flatten_nil, List.append_nil,
    List.cons_append, List.nil_append]
  after_results
  rfl

-- The reduction and the gather stay closed below: both sides apply the same ones to the same operands.
attribute [local irreducible] Host.gather Host.reduceAdd in
/-- The second window's array is the neighbour distances: `Spec.dist` of the squared distances, entry by entry. -/
theorem V_dist (c : Dev nD) :
    (V m c main_v25 : S50000x32.Idx → EReal)
      = fun i => Cert.Spec.dist (sq (m ((c.tc : Thread nD τ).loc main_arg1)) (m ((c.tc : Thread nD τ).loc main_arg2)) i) := by
  -- From the squared distances on, every operation acts entry by entry: a scalar constant spread over the array, the
  -- comparison with zero, the two choices, the square root. At an entry s they compose to
  -- (if s = 0 then 1/2 else √(if s = 0 then 1 else s)), which is `Spec.dist s`.
  dsimp only [Gen.V]
  simp only [hostOps0, hostOps0_1, hostOps0_2, hostOps0_3, hostOps0_4, List.flatten_cons, List.flatten_nil, List.append_nil,
    List.cons_append, List.nil_append]
  after_results_simp
  funext i
  unfold Cert.Spec.dist
  rfl

/-- The third window's array is the weight matrix re-laid: entry (k, f, o) is row k·64 + f, column o. -/
theorem V_w (c : Dev nD) (k : Fin 32) (f o : Fin 64) :
    (V m c main_v26 : S32x64x64.Idx → EReal) (ix3 k f o)
      = (m ((c.tc : Thread nD τ).loc main_arg3) : S2048x64.Idx → EReal) (ix2 (Cert.Spec.wrow k f) o) := by
  -- A re-laying keeps the row-major position: (k, f, o) of [32, 64, 64] sits at (k·64 + f)·64 + o, and so does
  -- (k·64 + f, o) of [2048, 64].
  dsimp only [Gen.V]
  simp only [hostOps0, hostOps0_1, hostOps0_2, hostOps0_3, hostOps0_4, List.flatten_cons, List.flatten_nil, List.append_nil,
    List.cons_append, List.nil_append]
  after_results_simp
  refine shapeCast_apply _ _ _ _ ?_
  show ((S2048x64 : Shape).rowMajor (ix2 (Cert.Spec.wrow k f) o)).val = ((S32x64x64 : Shape).rowMajor (ix3 k f o)).val
  rw [Shape.rowMajor_val_two, Shape.rowMajor_val_three]
  show (Cert.Spec.wrow k f).val * 64 + o.val = (k.val * 64 + f.val) * 64 + o.val
  rfl

end Cert.KernelIdeal.Hand

end
-- ==== Proof.KernelValue.lean ====
/-
  The kernel's result array as the common value of the two programs (Spec.lean).

  Grid point t of the 50 handles rows 1000·t … 1000·t + 999: the feature and distance windows follow the output window
  down the rows, the weight and bias windows stay put.  So what point t writes back is block t of one whole-array
  function of the four arrays the region reads; the 50 blocks tile the result array, which therefore ends holding that
  function; and with the arrays the host operations left there — the gathered features, the distances of the squared
  distances, the weight matrix re-laid — the function is the common value, the 32 contributions summed left to right
  from zero being their sum in any order.
-/
import proofs.«148729_j70523363000699_1_alg».proof.Proof.Gen.KernelIdeal.Value
import proofs.«148729_j70523363000699_1_alg».proof.Proof.KernelBody
import proofs.«148729_j70523363000699_1_alg».proof.Proof.KernelHost
import proofs.«148729_j70523363000699_1_alg».proof.Proof.Spec
import Idealize.ShloMosaic.Lib.Pipeline.Value

-- indices of arrays of 50000 rows: the elaborator's structural look recurses once per coordinate of the long axis
set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Where each window's block sits -/

/-- The printed index maps over the 50 points: the feature, distance and output windows are at block t along the rows
    and at block 0 elsewhere; the weight and bias windows are at block 0 throughout. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 50 := lt_of_lt_of_eq t.isLt N_0

/-- Row r of point t's blocks is row 1000·t + r of the arrays. -/
def row (t : Fin cfg0.N) (r : Fin 1000) : Fin 50000 := ⟨t.val * 1000 + r.val, by have := point_lt t; omega⟩

theorem feat_blk (c : Dev nD) (t : Fin cfg0.N) (r : Fin 1000) (k : Fin 32) (f : Fin 64) :
    (iblk m c 0 t : Vec Ideal S1000x32x64 .f32) (ix3 r k f) = (V m c main_v6 : S50000x32x64.Idx → EReal) (ix3 (row t r) k f) := by
  obtain ⟨e0, e1, e2, -⟩ := idx_facts t
  unfold iblk
  rw [View.read_apply]
  show (V m c main_v6 : S50000x32x64.Idx → EReal) _ = V m c main_v6 _
  congr 1
  funext a
  apply Fin.ext
  match a with
  | ⟨0, _⟩ => show win0_0.index t (0 : Fin 3) * 1000 + 1 * r.val = t.val * 1000 + r.val; rw [e0]; omega
  | ⟨1, _⟩ => show win0_0.index t (1 : Fin 3) * 32 + 1 * k.val = k.val; rw [e1]; omega
  | ⟨2, _⟩ => show win0_0.index t (2 : Fin 3) * 64 + 1 * f.val = f.val; rw [e2]; omega

theorem dist_blk (c : Dev nD) (t : Fin cfg0.N) (r : Fin 1000) (k : Fin 32) :
    (iblk m c 1 t : Vec Ideal S1000x32 .f32) (ix2 r k) = (V m c main_v25 : S50000x32.Idx → EReal) (ix2 (row t r) k) := by
  obtain ⟨-, -, -, e0, e1, -⟩ := idx_facts t
  unfold iblk
  rw [View.read_apply]
  show (V m c main_v25 : S50000x32.Idx → EReal) _ = V m c main_v25 _
  congr 1
  funext a
  apply Fin.ext
  match a with
  | ⟨0, _⟩ => show win0_1.index t (0 : Fin 2) * 1000 + 1 * r.val = t.val * 1000 + r.val; rw [e0]; omega
  | ⟨1, _⟩ => show win0_1.index t (1 : Fin 2) * 32 + 1 * k.val = k.val; rw [e1]; omega

theorem w_blk (c : Dev nD) (t : Fin cfg0.N) (k : Fin 32) (f o : Fin 64) :
    (iblk m c 2 t : Vec Ideal S32x64x64 .f32) (ix3 k f o) = (V m c main_v26 : S32x64x64.Idx → EReal) (ix3 k f o) := by
  obtain ⟨-, -, -, -, -, e0, e1, e2, -⟩ := idx_facts t
  unfold iblk
  rw [View.read_apply]
  show (V m c main_v26 : S32x64x64.Idx → EReal) _ = V m c main_v26 _
  congr 1
  funext a
  apply Fin.ext
  match a with
  | ⟨0, _⟩ => show win0_2.index t (0 : Fin 3) * 32 + 1 * k.val = k.val; rw [e0]; omega
  | ⟨1, _⟩ => show win0_2.index t (1 : Fin 3) * 64 + 1 * f.val = f.val; rw [e1]; omega
  | ⟨2, _⟩ => show win0_2.index t (2 : Fin 3) * 64 + 1 * o.val = o.val; rw [e2]; omega

theorem bias_blk (c : Dev nD) (t : Fin cfg0.N) (o : Fin 64) :
    (iblk m c 3 t : Vec Ideal S1x64 .f32) (ix2 0 o) = (V m c main_arg4 : S1x64.Idx → EReal) (ix2 0 o) := by
  obtain ⟨-, -, -, -, -, -, -, -, e0, e1, -⟩ := idx_facts t
  unfold iblk
  rw [View.read_apply]
  show (V m c main_arg4 : S1x64.Idx → EReal) _ = V m c main_arg4 _
  congr 1
  funext a
  apply Fin.ext
  match a with
  | ⟨0, _⟩ => show win0_3.index t (0 : Fin 2) * 1 + 1 * (0 : Fin 1).val = (0 : Fin 1).val; rw [e0]; simp
  | ⟨1, _⟩ => show win0_3.index t (1 : Fin 2) * 64 + 1 * o.val = o.val; rw [e1]; omega

/-! ## The result array as one function of the four arrays the region reads -/

/-- Entry (n, o): the activation of the 32 neighbours' contributions, summed left to right from zero, plus the bias. -/
def G (M : S50000x32x64.Idx → EReal) (D : S50000x32.Idx → EReal) (W3 : S32x64x64.Idx → EReal) (B : S1x64.Idx → EReal) :
    S50000x64.Idx → EReal :=
  fun i => Cert.Spec.act (Cert.Spec.acc32 (fun k => ∑ f : Fin 64, Ideal.div (M (ix3 (i 0) k f)) (D (ix2 (i 0) k)) * W3 (ix3 k f (i 1)))
    + B (ix2 0 (i 1)))

theorem G_apply (M : S50000x32x64.Idx → EReal) (D : S50000x32.Idx → EReal) (W3 : S32x64x64.Idx → EReal) (B : S1x64.Idx → EReal)
    (n : Fin 50000) (o : Fin 64) :
    G M D W3 B (ix2 n o) = Cert.Spec.act (Cert.Spec.acc32 (fun k => ∑ f : Fin 64, Ideal.div (M (ix3 n k f)) (D (ix2 n k)) * W3 (ix3 k f o))
      + B (ix2 0 o)) := rfl

/-- Entry (r, o) of the output window's block at point t is entry (1000·t + r, o) of the result array. -/
theorem out_emb (t : Fin cfg0.N) (r : Fin 1000) (o : Fin 64) :
    ((cfg0.win 4).blk t).view.emb (ix2 r o) = (ix2 (row t r) o : S50000x64.Idx) := by
  obtain ⟨-, -, -, -, -, -, -, -, -, -, e0, e1⟩ := idx_facts t
  funext a
  apply Fin.ext
  match a with
  | ⟨0, _⟩ => show win0_4.index t (0 : Fin 2) * 1000 + 1 * r.val = t.val * 1000 + r.val; rw [e0]; omega
  | ⟨1, _⟩ => show win0_4.index t (1 : Fin 2) * 64 + 1 * o.val = o.val; rw [e1]; omega

/-- An array read through the output window's block at point t, at (r, o), is the array at (1000·t + r, o). -/
theorem read_out_blk (Gf : S50000x64.Idx → EReal) (t : Fin cfg0.N) (r : Fin 1000) (o : Fin 64) :
    ((cfg0.win 4).blk t).view.read (Elt Ideal) Gf (ix2 r o) = Gf (ix2 (row t r) o) := by
  rw [View.read_apply]
  show Gf _ = Gf _
  exact congrArg Gf (out_emb t r o)

/-- What point t writes back is block t of `G` of the arrays as the region finds them. -/
theorem flushed_eq (c : Dev nD) (t : Fin cfg0.N) :
    (dats m 0 c).flushed 4 t
      = ((cfg0.win 4).blk t).view.read (Elt Ideal) (G (V m c main_v6) (V m c main_v25) (V m c main_v26) (V m c main_arg4)) := by
  rw [flushed4]
  funext y
  obtain ⟨r, o, rfl⟩ : ∃ (r : Fin 1000) (o : Fin 64), y = ix2 r o := ⟨y 0, y 1, eq_ix2 y⟩
  refine Eq.trans ?_ (read_out_blk _ t r o).symm
  rw [G_apply]
  refine (out0_4_apply (iblk m c 0 t) (iblk m c 1 t) (iblk m c 2 t) (iblk m c 3 t) r o).trans ?_
  unfold contrib
  simp only [feat_blk m c t, dist_blk m c t, w_blk m c t, bias_blk m c t]

/-- Every entry of the result array is in some point's block: row n is in block n / 1000. -/
theorem cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, -, -, e0, e1⟩ := idx_facts t
  refine ⟨t, flush0_4 t, ?_⟩
  show i ∈ ((View.whole main_v27).slice (win0_4.rect t)).set
  rw [View.set_slice_whole, Rect.mem_set_unit]
  intro a
  match a with
  | ⟨0, _⟩ =>
    show win0_4.index t (0 : Fin 2) * 1000 ≤ (i 0).val ∧ (i 0).val < win0_4.index t (0 : Fin 2) * 1000 + 1000
    rw [e0, ht]; omega
  | ⟨1, _⟩ =>
    show win0_4.index t (1 : Fin 2) * 64 ≤ (i 1).val ∧ (i 1).val < win0_4.index t (1 : Fin 2) * 64 + 64
    rw [e1]; omega

/-- So the result array ends holding `G` of the arrays as the region finds them. -/
theorem final (c : Dev nD) :
    (dats m 0 c).arrAt 4 cfg0.N = G (V m c main_v6) (V m c main_v25) (V m c main_v26) (V m c main_arg4) :=
  (dats m 0 c).arrAt_eq_of_cover 4 _ (fun t _ => flushed_eq m c t) cover

/-! ## With the host operations' arrays it is the common value -/

/-- With the distances those of squared distances Q and the re-laid weights those of a matrix W, `G` is the common
    value: the 32 contributions from zero are their sum, and row (k, f) of the re-laid weights is row k·64 + f. -/
theorem G_eq_out (M : S50000x32x64.Idx → EReal) (Q : S50000x32.Idx → EReal) (W3 : S32x64x64.Idx → EReal)
    (W : S2048x64.Idx → EReal) (B : S1x64.Idx → EReal)
    (hW : ∀ (k : Fin 32) (f o : Fin 64), W3 (ix3 k f o) = W (ix2 (Cert.Spec.wrow k f) o)) :
    G M (fun i => Cert.Spec.dist (Q i)) W3 B = Cert.Spec.out M Q W B := by
  funext i
  obtain ⟨n, o, rfl⟩ : ∃ (n : Fin 50000) (o : Fin 64), i = ix2 n o := ⟨i 0, i 1, eq_ix2 i⟩
  rw [G_apply, Cert.Spec.out_apply, Cert.Spec.acc32_eq_sum]
  unfold Cert.Spec.term
  simp only [hW]

theorem final_out (c : Dev nD) :
    (dats m 0 c).arrAt 4 cfg0.N
      = Cert.Spec.out (msgs (m ((c.tc : Thread nD τ).loc main_arg0)) (m ((c.tc : Thread nD τ).loc main_arg2))) (sq (m ((c.tc : Thread nD τ).loc main_arg1)) (m ((c.tc : Thread nD τ).loc main_arg2)))
          (m ((c.tc : Thread nD τ).loc main_arg3)) (m ((c.tc : Thread nD τ).loc main_arg4)) := by
  rw [final, V_msgs m c, V_dist m c, V_main_arg4 m c]
  exact G_eq_out _ _ _ _ _ (V_w m c)

/-- Every weakly fair execution of the kernel's program terminates with its result array at the common value and its
    argument arrays unchanged. -/
theorem run : θ_run (defs (F := Ideal)) (onTc (τ := τ) (main (F := Ideal))) ⟨m, fun _ => 0, ρ⟩ fun r => ∀ c : Dev nD,
      r.2.mem ((c.tc : Thread nD τ).loc main_v27)
          = Cert.Spec.out (msgs (m ((c.tc : Thread nD τ).loc main_arg0)) (m ((c.tc : Thread nD τ).loc main_arg2))) (sq (m ((c.tc : Thread nD τ).loc main_arg1)) (m ((c.tc : Thread nD τ).loc main_arg2)))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final_out m c), (h c).2⟩) (run_blocks m ρ)

end Cert.KernelIdeal.Hand

end
-- ==== Proof.RefRun.lean ====
/-
  The reference program as a straight line of host operations, its run, and the array it leaves in its result buffer
  as one composed term of the five argument arrays.

  The reference is a host program with no kernel: forty-one operations of its own and three calls of module-local
  functions (the choice function twice, on the [50000, 32, 1] distances; the leaky rectifier once, on the [50000, 64]
  result, itself calling the choice function of that shape).  A call means the callee's body at the call's buffers, so
  the whole program is one list of fifty-four operations; run from any memory it terminates with every buffer at the
  fold of the list over the launch contents, and that fold at the result buffer is the composed term below.
-/
import proofs.«148729_j70523363000699_1_alg».proof.ReferenceIdeal
import proofs.«148729_j70523363000699_1_alg».proof.Proof.Gen.ReferenceIdeal
import Idealize.ShloMosaic.Lib.StableHlo.Run

noncomputable section

namespace Cert.ReferenceIdeal.Hand.Run

open Cert.ReferenceIdeal Idealize.ShloMosaic Idealize.ShloMosaic.TcCoe Idealize.SL.Sem Idealize.ShloMosaic.StableHlo

variable {F : FTy → Type} [FloatOps F]

/-! ## The composed term -/

/-- The neighbour indices, a negative one moved up by the table's length, as a column of index vectors. -/
def widx (idx : IVec S50000x32 32) : IVec S50000x32x1 32 :=
  broadcastInDim S50000x32x1 ![0, 1] Facts₀.bcast_S50000x32_S50000x32x1_0_1
    (select (cmpi .slt idx (broadcastInDim S50000x32 ![] Facts₀.bcast_S_S50000x32 (constantI S_ 32 0#32)))
      (addi idx (broadcastInDim S50000x32 ![] Facts₀.bcast_S_S50000x32 (constantI S_ 32 50000#32))) idx)

/-- The gathered neighbour features [n, k, f]. -/
def feat (h : FVec F S50000x64 .f32) (idx : IVec S50000x32 32) : FVec F S50000x32x64 .f32 :=
  Host.gather gather_S50000x64_S50000x32x1_S50000x32x64_2_0_n_n_0_2_164 h (widx idx)

/-- The coordinate differences [n, k, p] of a point and its neighbour. -/
def dif (pos : FVec F S50000x3 .f32) (idx : IVec S50000x32 32) : FVec F S50000x32x3 .f32 :=
  subf (broadcastInDim S50000x32x3 ![0, 1, 2] Facts₀.bcast_S50000x1x3_S50000x32x3_0_1_2
      (broadcastInDim S50000x1x3 ![0, 2] Facts₀.bcast_S50000x3_S50000x1x3_0_2 pos))
    (Host.gather gather_S50000x3_S50000x32x1_S50000x32x3_2_0_n_n_0_2_13 pos (widx idx))

/-- The squared neighbour distances [n, k]. -/
def sqd (pos : FVec F S50000x3 .f32) (idx : IVec S50000x32 32) : FVec F S50000x32 .f32 :=
  Host.reduceAdd (mulf (dif pos idx) (dif pos idx)) (constant S_ .f32 0x00000000#32) Facts₀.reducesTo_S50000x32x3_S50000x32_d2 Facts₀.h_S_

/-- The neighbour distances [n, k, 0] from their squares [n, k]: one half where the square is zero, else the square
    root (of one where the square is zero). -/
def dst (Q : FVec F S50000x32 .f32) : FVec F S50000x32x1 .f32 :=
  select
    (cmpf .oeq (broadcastInDim S50000x32x1 ![0, 1] Facts₀.bcast_S50000x32_S50000x32x1_0_1 Q)
      (broadcastInDim S50000x32x1 ![] Facts₀.bcast_S_S50000x32x1 (constant S_ .f32 0x00000000#32)))
    (broadcastInDim S50000x32x1 ![] Facts₀.bcast_S_S50000x32x1 (id (constant S_ .f32 0x3F000000#32)))
    (Host.sqrt
      (select
        (cmpf .oeq (broadcastInDim S50000x32x1 ![0, 1] Facts₀.bcast_S50000x32_S50000x32x1_0_1 Q)
          (broadcastInDim S50000x32x1 ![] Facts₀.bcast_S_S50000x32x1 (constant S_ .f32 0x00000000#32)))
        (broadcastInDim S50000x32x1 ![] Facts₀.bcast_S_S50000x32x1 (id (constant S_ .f32 0x3F800000#32)))
        (broadcastInDim S50000x32x1 ![0, 1] Facts₀.bcast_S50000x32_S50000x32x1_0_1 Q)))

/-- The features over the distances, laid out as rows of 2048, against the weight matrix, plus the bias row. -/
def lin (M : FVec F S50000x32x64 .f32) (D : FVec F S50000x32x1 .f32) (W : FVec F S2048x64 .f32) (B : FVec F S1x64 .f32) :
    FVec F S50000x64 .f32 :=
  addf
    (Host.dotGeneral dot_S50000x2048_S2048x64_S50000x64_1_0_0_1_n_n none
      (shapeCast S50000x2048
        (Host.divf M (broadcastInDim S50000x32x64 ![0, 1, 2] Facts₀.bcast_S50000x32x1_S50000x32x64_0_1_2 D))
        Facts₀.shapeCasts_S50000x32x64_S50000x2048)
      W)
    (broadcastInDim S50000x64 ![0, 1] Facts₀.bcast_S1x64_S50000x64_0_1 B)

/-- The leaky rectifier: the value where it is at least zero, else the slope's multiple. -/
def lrelu (x : FVec F S50000x64 .f32) : FVec F S50000x64 .f32 :=
  select (cmpf .oge x (broadcastInDim S50000x64 ![] Facts₀.bcast_S_S50000x64 (constant S_ .f32 0x00000000#32))) x
    (mulf (broadcastInDim S50000x64 ![] Facts₀.bcast_S_S50000x64 (id (constant S_ .f32 0x3C23D70A#32))) x)

/-- The reference's result from the gathered features and the squared distances. -/
def res (M : FVec F S50000x32x64 .f32) (Q : FVec F S50000x32 .f32) (W : FVec F S2048x64 .f32) (B : FVec F S1x64 .f32) :
    FVec F S50000x64 .f32 :=
  lrelu (lin M (dst Q) W B)

/-! ## The program as a list of operations -/

/-- @main's fifty-four operations in order, each call's body listed at the call over the call's buffers. -/
abbrev ops : List (HloOp τ sig (Elt F)) :=
  [ nullary main_c (constantI S_ 32 0#32),
    unary main_c main_v0 (broadcastInDim S50000x32 ![] Facts₀.bcast_S_S50000x32 : (⟨S_, .i32⟩ : BufTy).Contents (Elt F) → (⟨S50000x32, .i32⟩ : BufTy).Contents (Elt F)),
    binary main_arg2 main_v0 main_v1 (cmpi .slt : (⟨S50000x32, .i32⟩ : BufTy).Contents (Elt F) → (⟨S50000x32, .i32⟩ : BufTy).Contents (Elt F) → (⟨S50000x32, .i1⟩ : BufTy).Contents (Elt F)),
    nullary main_c_0 (constantI S_ 32 50000#32),
    unary main_c_0 main_v2 (broadcastInDim S50000x32 ![] Facts₀.bcast_S_S50000x32 : (⟨S_, .i32⟩ : BufTy).Contents (Elt F) → (⟨S50000x32, .i32⟩ : BufTy).Contents (Elt F)),
    binary main_arg2 main_v2 main_v3 (addi : (⟨S50000x32, .i32⟩ : BufTy).Contents (Elt F) → (⟨S50000x32, .i32⟩ : BufTy).Contents (Elt F) → (⟨S50000x32, .i32⟩ : BufTy).Contents (Elt F)),
    ternary main_v1 main_v3 main_arg2 main_v4 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_v4 main_v5 (broadcastInDim S50000x32x1 ![0, 1] Facts₀.bcast_S50000x32_S50000x32x1_0_1 : (⟨S50000x32, .i32⟩ : BufTy).Contents (Elt F) → (⟨S50000x32x1, .i32⟩ : BufTy).Contents (Elt F)),
    binary main_arg0 main_v5 main_v6 ((fun x i => Host.gather gather_S50000x64_S50000x32x1_S50000x32x64_2_0_n_n_0_2_164 x i) : (⟨S50000x64, .f32⟩ : BufTy).Contents (Elt F) → (⟨S50000x32x1, .i32⟩ : BufTy).Contents (Elt F) → (⟨S50000x32x64, .f32⟩ : BufTy).Contents (Elt F)),
    unary main_arg1 main_v7 (broadcastInDim S50000x1x3 ![0, 2] Facts₀.bcast_S50000x3_S50000x1x3_0_2 : (⟨S50000x3, .f32⟩ : BufTy).Contents (Elt F) → (⟨S50000x1x3, .f32⟩ : BufTy).Contents (Elt F)),
    nullary main_c_1 (constantI S_ 32 0#32),
    unary main_c_1 main_v8 (broadcastInDim S50000x32 ![] Facts₀.bcast_S_S50000x32 : (⟨S_, .i32⟩ : BufTy).Contents (Elt F) → (⟨S50000x32, .i32⟩ : BufTy).Contents (Elt F)),
    binary main_arg2 main_v8 main_v9 (cmpi .slt : (⟨S50000x32, .i32⟩ : BufTy).Contents (Elt F) → (⟨S50000x32, .i32⟩ : BufTy).Contents (Elt F) → (⟨S50000x32, .i1⟩ : BufTy).Contents (Elt F)),
    nullary main_c_2 (constantI S_ 32 50000#32),
    unary main_c_2 main_v10 (broadcastInDim S50000x32 ![] Facts₀.bcast_S_S50000x32 : (⟨S_, .i32⟩ : BufTy).Contents (Elt F) → (⟨S50000x32, .i32⟩ : BufTy).Contents (Elt F)),
    binary main_arg2 main_v10 main_v11 (addi : (⟨S50000x32, .i32⟩ : BufTy).Contents (Elt F) → (⟨S50000x32, .i32⟩ : BufTy).Contents (Elt F) → (⟨S50000x32, .i32⟩ : BufTy).Contents (Elt F)),
    ternary main_v9 main_v11 main_arg2 main_v12 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_v12 main_v13 (broadcastInDim S50000x32x1 ![0, 1] Facts₀.bcast_S50000x32_S50000x32x1_0_1 : (⟨S50000x32, .i32⟩ : BufTy).Contents (Elt F) → (⟨S50000x32x1, .i32⟩ : BufTy).Contents (Elt F)),
    binary main_arg1 main_v13 main_v14 ((fun x i => Host.gather gather_S50000x3_S50000x32x1_S50000x32x3_2_0_n_n_0_2_13 x i) : (⟨S50000x3, .f32⟩ : BufTy).Contents (Elt F) → (⟨S50000x32x1, .i32⟩ : BufTy).Contents (Elt F) → (⟨S50000x32x3, .f32⟩ : BufTy).Contents (Elt F)),
    unary main_v7 main_v15 (broadcastInDim S50000x32x3 ![0, 1, 2] Facts₀.bcast_S50000x1x3_S50000x32x3_0_1_2 : (⟨S50000x1x3, .f32⟩ : BufTy).Contents (Elt F) → (⟨S50000x32x3, .f32⟩ : BufTy).Contents (Elt F)),
    binary main_v15 main_v14 main_v16 (subf : (⟨S50000x32x3, .f32⟩ : BufTy).Contents (Elt F) → (⟨S50000x32x3, .f32⟩ : BufTy).Contents (Elt F) → (⟨S50000x32x3, .f32⟩ : BufTy).Contents (Elt F)),
    binary main_v16 main_v16 main_v17 (mulf : (⟨S50000x32x3, .f32⟩ : BufTy).Contents (Elt F) → (⟨S50000x32x3, .f32⟩ : BufTy).Contents (Elt F) → (⟨S50000x32x3, .f32⟩ : BufTy).Contents (Elt F)),
    nullary main_cst (constant S_ .f32 0x00000000#32),
    binary main_v17 main_cst main_v18 ((fun x v => Host.reduceAdd x v Facts₀.reducesTo_S50000x32x3_S50000x32_d2 Facts₀.h_S_) : (⟨S50000x32x3, .f32⟩ : BufTy).Contents (Elt F) → (⟨S_, .f32⟩ : BufTy).Contents (Elt F) → (⟨S50000x32, .f32⟩ : BufTy).Contents (Elt F)),
    unary main_v18 main_v19 (broadcastInDim S50000x32x1 ![0, 1] Facts₀.bcast_S50000x32_S50000x32x1_0_1 : (⟨S50000x32, .f32⟩ : BufTy).Contents (Elt F) → (⟨S50000x32x1, .f32⟩ : BufTy).Contents (Elt F)),
    nullary main_cst_3 (constant S_ .f32 0x00000000#32),
    unary main_cst_3 main_v20 (broadcastInDim S50000x32x1 ![] Facts₀.bcast_S_S50000x32x1 : (⟨S_, .f32⟩ : BufTy).Contents (Elt F) → (⟨S50000x32x1, .f32⟩ : BufTy).Contents (Elt F)),
    binary main_v19 main_v20 main_v21 (cmpf .oeq : (⟨S50000x32x1, .f32⟩ : BufTy).Contents (Elt F) → (⟨S50000x32x1, .f32⟩ : BufTy).Contents (Elt F) → (⟨S50000x32x1, .i1⟩ : BufTy).Contents (Elt F)),
    nullary main_cst_4 (constant S_ .f32 0x00000000#32),
    unary main_cst_4 main_v22 (broadcastInDim S50000x32x1 ![] Facts₀.bcast_S_S50000x32x1 : (⟨S_, .f32⟩ : BufTy).Contents (Elt F) → (⟨S50000x32x1, .f32⟩ : BufTy).Contents (Elt F)),
    binary main_v19 main_v22 main_v23 (cmpf .oeq : (⟨S50000x32x1, .f32⟩ : BufTy).Contents (Elt F) → (⟨S50000x32x1, .f32⟩ : BufTy).Contents (Elt F) → (⟨S50000x32x1, .i1⟩ : BufTy).Contents (Elt F)),
    nullary main_cst_5 (constant S_ .f32 0x3F800000#32),
    TRef.unary (.of main_cst_5) main_call0.v0 id,
    TRef.unary main_call0.v0 main_call0.v1 (broadcastInDim S50000x32x1 ![] Facts₀.bcast_S_S50000x32x1),
    TRef.ternary (.of main_v23) main_call0.v1 (.of main_v19) main_call0.v2 select,
    unary main_v24 main_v25 (Host.sqrt : (⟨S50000x32x1, .f32⟩ : BufTy).Contents (Elt F) → (⟨S50000x32x1, .f32⟩ : BufTy).Contents (Elt F)),
    nullary main_cst_6 (constant S_ .f32 0x3F000000#32),
    TRef.unary (.of main_cst_6) main_call1.v0 id,
    TRef.unary main_call1.v0 main_call1.v1 (broadcastInDim S50000x32x1 ![] Facts₀.bcast_S_S50000x32x1),
    TRef.ternary (.of main_v21) main_call1.v1 (.of main_v25) main_call1.v2 select,
    unary main_v26 main_v27 (broadcastInDim S50000x32x64 ![0, 1, 2] Facts₀.bcast_S50000x32x1_S50000x32x64_0_1_2 : (⟨S50000x32x1, .f32⟩ : BufTy).Contents (Elt F) → (⟨S50000x32x64, .f32⟩ : BufTy).Contents (Elt F)),
    binary main_v6 main_v27 main_v28 (Host.divf : (⟨S50000x32x64, .f32⟩ : BufTy).Contents (Elt F) → (⟨S50000x32x64, .f32⟩ : BufTy).Contents (Elt F) → (⟨S50000x32x64, .f32⟩ : BufTy).Contents (Elt F)),
    reshape main_v28 main_v29 rfl Facts₀.shapeCasts_S50000x32x64_S50000x2048,
    binary main_v29 main_arg3 main_v30 ((fun l r => Host.dotGeneral dot_S50000x2048_S2048x64_S50000x64_1_0_0_1_n_n none l r) : (⟨S50000x2048, .f32⟩ : BufTy).Contents (Elt F) → (⟨S2048x64, .f32⟩ : BufTy).Contents (Elt F) → (⟨S50000x64, .f32⟩ : BufTy).Contents (Elt F)),
    unary main_arg4 main_v31 (broadcastInDim S50000x64 ![0, 1] Facts₀.bcast_S1x64_S50000x64_0_1 : (⟨S1x64, .f32⟩ : BufTy).Contents (Elt F) → (⟨S50000x64, .f32⟩ : BufTy).Contents (Elt F)),
    binary main_v30 main_v31 main_v32 (addf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x3C23D70A#32),
    TRef.nullary main_call2.cst (constant S_ .f32 0x00000000#32),
    TRef.unary main_call2.cst main_call2.v0 (broadcastInDim S50000x64 ![] Facts₀.bcast_S_S50000x64),
    TRef.binary (.of main_v32) main_call2.v0 main_call2.v1 (cmpf .oge),
    TRef.unary (.of main_cst_7) main_call2.v2 id,
    TRef.unary main_call2.v2 main_call2.v3 (broadcastInDim S50000x64 ![] Facts₀.bcast_S_S50000x64),
    TRef.binary main_call2.v3 (.of main_v32) main_call2.v4 mulf,
    TRef.ternary main_call2.v1 (.of main_v32) main_call2.v4 main_call2.call0.v0 select ]

set_option maxRecDepth 2048 in
/-- @main is that straight line: the functions' bodies unfolded at their calls, sequencing reassociated. -/
theorem main_eq (c : Dev nD) : main (F := F) c = seq ops := by
  simp only [main, fn_where.body, fn_where_0.body, fn_leaky_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., unary_bufs_sub .., ternary_bufs_sub .., unary_bufs_sub .., binary_bufs_sub ..,
    reshape_bufs_sub .., binary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

/-- From any memory with zero counters every weakly fair execution of @main terminates, each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the arguments -/

attribute [local irreducible] Host.gather Host.reduceAdd in
set_option maxRecDepth 8192 in
/-- The fold at the result buffer is the composed term: each operation's result read at its own buffer, every other
    buffer left as it was. -/
theorem out_eq (V : Valuation τ sig (Elt F)) :
    after ops V (main_v33 : DevRef τ sig)
      = res (feat (V (main_arg0 : DevRef τ sig)) (V (main_arg2 : DevRef τ sig)))
          (sqd (V (main_arg1 : DevRef τ sig)) (V (main_arg2 : DevRef τ sig)))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

end Cert.ReferenceIdeal.Hand.Run

end
-- ==== Proof.RefValue.lean ====
/-
  The reference's result array as the common value of the two programs (Spec.lean), at the reference's own gathered
  features and squared distances.

  The reference's run (RefRun.lean) leaves in the result buffer the composed term
      lrelu (rows(M / spread(dst Q)) · W + spread(B)),    M the gathered features, Q the squared distances.
  Read at an index (n, o): the rectifier, the choices, the comparisons, the square root, the division and the sum with
  the bias act element by element; the product is the sum over the 2048 rows j of rows[n, j] · W[j, o]; a row number is
  a pair (k, f) in row-major order, j = k·64 + f, and rows[n, k·64 + f] is the [n, k, f] element of the quotient, whose
  divisor is the distance of the pair (n, k) whatever f.  That is the common value, term by term.
-/
import proofs.«148729_j70523363000699_1_alg».proof.ReferenceIdeal
import proofs.«148729_j70523363000699_1_alg».proof.Proof.Gen.ReferenceIdeal
import proofs.«148729_j70523363000699_1_alg».proof.Proof.Spec
import proofs.«148729_j70523363000699_1_alg».proof.Proof.RefRun
import Idealize.ShloMosaic.Lib.StableHlo.Run
import Idealize.ShloMosaic.Lib.Pipeline.Value
import Idealize.ShloMosaic.Lib.ValueIdx
import Idealize.ShloMosaic.PureOps.Ideal.Laws
import Idealize.ShloMosaic.PureOps.Dims

noncomputable section

namespace Cert.ReferenceIdeal.Hand

open Cert.ReferenceIdeal Idealize.ShloMosaic Idealize.ShloMosaic.TcCoe Idealize.SL.Sem

/-- The neighbour indices with the negative ones wrapped by the table's length, as a column of index vectors. -/
def wrap (idx : IVec S50000x32 32) : IVec S50000x32x1 32 :=
  broadcastInDim S50000x32x1 ![0, 1] Facts₀.bcast_S50000x32_S50000x32x1_0_1
    (select (cmpi .slt idx (broadcastInDim S50000x32 ![] Facts₀.bcast_S_S50000x32 (constantI S_ 32 0#32)))
      (addi idx (broadcastInDim S50000x32 ![] Facts₀.bcast_S_S50000x32 (constantI S_ 32 50000#32))) idx)

/-- The gathered neighbour features [n, k, f]: row (wrapped index [n, k]) of the feature table. -/
def msgs (h : FVec Ideal S50000x64 .f32) (idx : IVec S50000x32 32) : FVec Ideal S50000x32x64 .f32 :=
  Host.gather gather_S50000x64_S50000x32x1_S50000x32x64_2_0_n_n_0_2_164 h (wrap idx)

/-- The difference of a point's position and its neighbour's, per coordinate [n, k, p]. -/
def diff (pos : FVec Ideal S50000x3 .f32) (idx : IVec S50000x32 32) : FVec Ideal S50000x32x3 .f32 :=
  subf (broadcastInDim S50000x32x3 ![0, 1, 2] Facts₀.bcast_S50000x1x3_S50000x32x3_0_1_2
      (broadcastInDim S50000x1x3 ![0, 2] Facts₀.bcast_S50000x3_S50000x1x3_0_2 pos))
    (Host.gather gather_S50000x3_S50000x32x1_S50000x32x3_2_0_n_n_0_2_13 pos (wrap idx))

/-- The squared neighbour distances [n, k]: the sum over the three coordinates of the squared differences. -/
def sq (pos : FVec Ideal S50000x3 .f32) (idx : IVec S50000x32 32) : FVec Ideal S50000x32 .f32 :=
  Host.reduceAdd (mulf (diff pos idx) (diff pos idx)) (constant S_ .f32 0x00000000#32) Facts₀.reducesTo_S50000x32x3_S50000x32_d2 Facts₀.h_S_

section Index

open Idealize.ShloMosaic.ValueIdx

/-! ## The composed term, index by index -/

/-- The squared distances as a column, read at (n, k, 0). -/
theorem col_apply (Q : FVec Ideal S50000x32 .f32) (n : Fin 50000) (k : Fin 32) :
    broadcastInDim S50000x32x1 ![0, 1] Facts₀.bcast_S50000x32_S50000x32x1_0_1 Q (ix3 n k 0) = Q (ix2 n k) :=
  broadcastInDim_apply _ _ _ _ (ix2 n k) (by intro a; fin_cases a <;> rfl)

/-- The distance column at (n, k, 0) is the distance of the squared distance at (n, k): the two choices, the comparison
    with zero and the square root act element by element, the constants are their words everywhere. -/
theorem dst_apply (Q : FVec Ideal S50000x32 .f32) (n : Fin 50000) (k : Fin 32) :
    Run.dst Q (ix3 n k 0) = Cert.Spec.dist (Q (ix2 n k)) := by
  show Cert.Spec.dist (broadcastInDim S50000x32x1 ![0, 1] Facts₀.bcast_S50000x32_S50000x32x1_0_1 Q (ix3 n k 0)) = _
  rw [col_apply]

/-- The rectifier acts element by element. -/
theorem lrelu_apply (x : FVec Ideal S50000x64 .f32) (n : Fin 50000) (o : Fin 64) :
    Run.lrelu x (ix2 n o) = Cert.Spec.act (x (ix2 n o)) := rfl

/-! ### The contraction's index maps, coordinate by coordinate -/

theorem lhs_0 (j : S50000x64.Idx) (k : Cert.ReferenceIdeal.dot_S50000x2048_S2048x64_S50000x64_1_0_0_1_n_n.contr.Idx) :
    (Cert.ReferenceIdeal.dot_S50000x2048_S2048x64_S50000x64_1_0_0_1_n_n.lhsIdx j k 0 : ℕ) = j 0 := by
  simp [DotDims.lhsIdx, Cert.ReferenceIdeal.dot_S50000x2048_S2048x64_S50000x64_1_0_0_1_n_n]; rfl
theorem lhs_1 (j : S50000x64.Idx) (k : Cert.ReferenceIdeal.dot_S50000x2048_S2048x64_S50000x64_1_0_0_1_n_n.contr.Idx) :
    (Cert.ReferenceIdeal.dot_S50000x2048_S2048x64_S50000x64_1_0_0_1_n_n.lhsIdx j k 1 : ℕ) = k ⟨0, by decide⟩ := by
  simp [DotDims.lhsIdx, Cert.ReferenceIdeal.dot_S50000x2048_S2048x64_S50000x64_1_0_0_1_n_n]; rfl
theorem rhs_0 (j : S50000x64.Idx) (k : Cert.ReferenceIdeal.dot_S50000x2048_S2048x64_S50000x64_1_0_0_1_n_n.contr.Idx) :
    (Cert.ReferenceIdeal.dot_S50000x2048_S2048x64_S50000x64_1_0_0_1_n_n.rhsIdx j k 0 : ℕ) = k ⟨0, by decide⟩ := by
  simp [DotDims.rhsIdx, Cert.ReferenceIdeal.dot_S50000x2048_S2048x64_S50000x64_1_0_0_1_n_n]; rfl
theorem rhs_1 (j : S50000x64.Idx) (k : Cert.ReferenceIdeal.dot_S50000x2048_S2048x64_S50000x64_1_0_0_1_n_n.contr.Idx) :
    (Cert.ReferenceIdeal.dot_S50000x2048_S2048x64_S50000x64_1_0_0_1_n_n.rhsIdx j k 1 : ℕ) = j 1 := by
  simp [DotDims.rhsIdx, Cert.ReferenceIdeal.dot_S50000x2048_S2048x64_S50000x64_1_0_0_1_n_n]; rfl

/-- The contraction positions are the 2048 row numbers. -/
def rowsEquiv : Cert.ReferenceIdeal.dot_S50000x2048_S2048x64_S50000x64_1_0_0_1_n_n.contr.Idx ≃ Fin 2048 :=
  contrEquiv1 Cert.ReferenceIdeal.dot_S50000x2048_S2048x64_S50000x64_1_0_0_1_n_n 2048 rfl rfl

/-- At output (n, o) and row i the left operand is read at (n, i). -/
theorem lhsIdx_eq (n : Fin 50000) (o : Fin 64) (i : Fin 2048) :
    Cert.ReferenceIdeal.dot_S50000x2048_S2048x64_S50000x64_1_0_0_1_n_n.lhsIdx (ix2 n o) (rowsEquiv.symm i) = ix2 n i := by
  funext a
  fin_cases a
  · exact Fin.ext (lhs_0 _ _)
  · refine Fin.ext ((lhs_1 _ _).trans ?_)
    exact contrEquiv1_symm_val _ 2048 rfl rfl i

/-- At output (n, o) and row i the right operand is read at (i, o). -/
theorem rhsIdx_eq (n : Fin 50000) (o : Fin 64) (i : Fin 2048) :
    Cert.ReferenceIdeal.dot_S50000x2048_S2048x64_S50000x64_1_0_0_1_n_n.rhsIdx (ix2 n o) (rowsEquiv.symm i) = ix2 i o := by
  funext a
  fin_cases a
  · refine Fin.ext ((rhs_0 _ _).trans ?_)
    exact contrEquiv1_symm_val _ 2048 rfl rfl i
  · exact Fin.ext (rhs_1 _ _)

/-- The product of a [50000, 2048] array and the weights at (n, o): the sum over the 2048 rows. -/
theorem dot_apply (L : FVec Ideal S50000x2048 .f32) (W : FVec Ideal S2048x64 .f32) (n : Fin 50000) (o : Fin 64) :
    Host.dotGeneral dot_S50000x2048_S2048x64_S50000x64_1_0_0_1_n_n none L W (ix2 n o)
      = ∑ i : Fin 2048, L (ix2 n i) * W (ix2 i o) := by
  show FloatOps.dotGeneral _ none .single L W (ix2 n o) = _
  rw [Ideal.dotGeneral_apply, ← Equiv.sum_comp rowsEquiv.symm]
  exact Finset.sum_congr rfl fun i _ => by rw [lhsIdx_eq, rhsIdx_eq]

/-- The rows of 2048 read at (n, k·64 + f) are the [50000, 32, 64] array at (n, k, f): both are at row-major position
    (n·32 + k)·64 + f = n·2048 + (k·64 + f). -/
theorem rows_apply (X : FVec Ideal S50000x32x64 .f32) (n : Fin 50000) (k : Fin 32) (f : Fin 64) :
    shapeCast S50000x2048 X Facts₀.shapeCasts_S50000x32x64_S50000x2048 (ix2 n (Cert.Spec.wrow k f)) = X (ix3 n k f) :=
  shapeCast_apply _ _ _ _ (by
    rw [Shape.rowMajor_val_three, Shape.rowMajor_val_two]
    show (n.val * 32 + k.val) * 64 + f.val = n.val * 2048 + (k.val * 64 + f.val)
    omega)

/-- The distance column spread over the 64 features, read at (n, k, f). -/
theorem spread_apply (D : FVec Ideal S50000x32x1 .f32) (n : Fin 50000) (k : Fin 32) (f : Fin 64) :
    broadcastInDim S50000x32x64 ![0, 1, 2] Facts₀.bcast_S50000x32x1_S50000x32x64_0_1_2 D (ix3 n k f) = D (ix3 n k 0) :=
  broadcastInDim_apply _ _ _ _ (ix3 n k 0) (by intro a; fin_cases a <;> rfl)

/-- The bias row spread over the points, read at (n, o). -/
theorem bias_apply (B : FVec Ideal S1x64 .f32) (n : Fin 50000) (o : Fin 64) :
    broadcastInDim S50000x64 ![0, 1] Facts₀.bcast_S1x64_S50000x64_0_1 B (ix2 n o) = B (ix2 0 o) :=
  broadcastInDim_apply _ _ _ _ (ix2 0 o) (by intro a; fin_cases a <;> rfl)

/-- Before the rectifier, at (n, o): the 32 neighbours' contributions plus the bias. The sum over the 2048 rows is
    regrouped as the sum over the neighbours k of the sums over their features f, row k·64 + f. -/
theorem lin_apply (M : FVec Ideal S50000x32x64 .f32) (Q : FVec Ideal S50000x32 .f32) (W : FVec Ideal S2048x64 .f32)
    (B : FVec Ideal S1x64 .f32) (n : Fin 50000) (o : Fin 64) :
    Run.lin M (Run.dst Q) W B (ix2 n o) = (∑ k : Fin 32, Cert.Spec.term M Q W n o k) + B (ix2 0 o) := by
  show Host.dotGeneral dot_S50000x2048_S2048x64_S50000x64_1_0_0_1_n_n none _ W (ix2 n o)
      + broadcastInDim S50000x64 ![0, 1] Facts₀.bcast_S1x64_S50000x64_0_1 B (ix2 n o) = _
  rw [dot_apply, bias_apply, Cert.Spec.sum_rows]
  refine congrArg (· + B (ix2 0 o)) (Finset.sum_congr rfl fun k _ => Finset.sum_congr rfl fun f _ => ?_)
  rw [rows_apply]
  show Ideal.div (M (ix3 n k f))
      (broadcastInDim S50000x32x64 ![0, 1, 2] Facts₀.bcast_S50000x32x1_S50000x32x64_0_1_2 (Run.dst Q) (ix3 n k f)) * _ = _
  rw [spread_apply, dst_apply]

/-- The composed term is the common value, for any gathered features and squared distances. -/
theorem res_eq (M : FVec Ideal S50000x32x64 .f32) (Q : FVec Ideal S50000x32 .f32) (W : FVec Ideal S2048x64 .f32)
    (B : FVec Ideal S1x64 .f32) : Run.res M Q W B = Cert.Spec.out M Q W B := by
  funext j
  obtain ⟨n, o, rfl⟩ : ∃ n o, j = ix2 n o := ⟨j 0, j 1, eq_ix2 j⟩
  rw [Cert.Spec.out_apply, ← lin_apply]
  rfl

end Index

/-- The composed term at the reference's own gathered features and squared distances (the run's spelling of them is
    this module's, definition by definition). -/
theorem res_run (h : FVec Ideal S50000x64 .f32) (pos : FVec Ideal S50000x3 .f32) (idx : IVec S50000x32 32)
    (W : FVec Ideal S2048x64 .f32) (B : FVec Ideal S1x64 .f32) :
    Run.res (Run.feat h idx) (Run.sqd pos idx) W B = Cert.Spec.out (msgs h idx) (sq pos idx) W B :=
  res_eq (msgs h idx) (sq pos idx) W B

/-- Every weakly fair execution of the reference terminates with its result array at the common value and its argument
    arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = Cert.Spec.out (msgs (m ((c.tc : Thread nD τ).loc main_arg0)) (m ((c.tc : Thread nD τ).loc main_arg2)))
              (sq (m ((c.tc : Thread nD τ).loc main_arg1)) (m ((c.tc : Thread nD τ).loc main_arg2)))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun _ hr c => ⟨?_, ?_, ?_, ?_, ?_, ?_⟩) (Run.run_main (F := Ideal) m ρ)
  · exact ((hr c main_v33).trans (Run.out_eq _)).trans (res_run _ _ _ _ _)
  · exact (hr c main_arg0).trans (Run.arg0_eq _)
  · exact (hr c main_arg1).trans (Run.arg1_eq _)
  · exact (hr c main_arg2).trans (Run.arg2_eq _)
  · exact (hr c main_arg3).trans (Run.arg3_eq _)
  · exact (hr c main_arg4).trans (Run.arg4_eq _)

end Cert.ReferenceIdeal.Hand

end
-- ==== Proof.lean ====
/-
  A graph-convolution layer over 50000 points with 32 neighbours each: for point n and output o,

      out[n,o] = act ( Σ_k Σ_f  h[idx[n,k], f] / dist[n,k] · weight[k·64+f, o]  +  bias[0,o] ),

  dist[n,k] the distance of point n to its k-th neighbour (one half where it is zero), act the leaky rectifier.
  Both programs gather the neighbour features and compute the squared distances with the same host operations; the
  kernel then takes 1000 points per grid step and accumulates 32 products of a [1000, 64] quotient with a [64, 64]
  weight slab, the reference forms the [50000, 2048] quotient and contracts it once.  On the extended reals the
  changes of float format are the identity and the two contractions are one finite sum grouped two ways, so both
  results are the one function `Cert.Spec.out` of the same gathered features, squared distances, weights and bias
  (KernelValue.lean, RefValue.lean); the idealization rewrote nothing, and the frames are the programs' runs.
-/
import proofs.«148729_j70523363000699_1_alg».proof.Defs
import proofs.«148729_j70523363000699_1_alg».proof.Proof.Gen.Kernel
import proofs.«148729_j70523363000699_1_alg».proof.Proof.Gen.Kernel.Skeleton
import proofs.«148729_j70523363000699_1_alg».proof.Proof.Gen.Kernel.Launch
import proofs.«148729_j70523363000699_1_alg».proof.Proof.Gen.Kernel.Points
import proofs.«148729_j70523363000699_1_alg».proof.Proof.Gen.Kernel.Frame
import proofs.«148729_j70523363000699_1_alg».proof.Proof.Gen.KernelIdeal
import proofs.«148729_j70523363000699_1_alg».proof.Proof.Gen.KernelIdeal.Skeleton
import proofs.«148729_j70523363000699_1_alg».proof.Proof.Gen.KernelIdeal.Launch
import proofs.«148729_j70523363000699_1_alg».proof.Proof.Gen.KernelIdeal.Points
import proofs.«148729_j70523363000699_1_alg».proof.Proof.Gen.KernelIdeal.Frame
import proofs.«148729_j70523363000699_1_alg».proof.Proof.Gen.KernelIdeal.Value
import proofs.«148729_j70523363000699_1_alg».proof.Proof.Gen.ReferenceIdeal
import proofs.«148729_j70523363000699_1_alg».proof.Proof.Gen.Pre_finite_inputs
import Idealize.ShloMosaic.Adequacy
import Idealize.ShloMosaic.Init
import proofs.«148729_j70523363000699_1_alg».proof.Proof.KernelValue
import proofs.«148729_j70523363000699_1_alg».proof.Proof.RefValue

noncomputable section

namespace Cert.Proof

open Idealize.ShloMosaic Idealize.SL.Sem

/-! ## The shared host prefix, spelt by each program, is one term -/

-- the gather and the reduction stay closed: both programs apply the same ones to the same operands
attribute [local irreducible] Host.gather Host.reduceAdd in
/-- The gathered features: the same gather of the same wrapped indices. -/
theorem msgs_eq (h : FVec Ideal Cert.KernelIdeal.S50000x64 .f32) (idx : IVec Cert.KernelIdeal.S50000x32 32) :
    Cert.ReferenceIdeal.Hand.msgs h idx = Cert.KernelIdeal.Hand.msgs h idx := rfl

attribute [local irreducible] Host.gather Host.reduceAdd in
/-- The squared distances: the same sum of the same squared differences. -/
theorem sq_eq (pos : FVec Ideal Cert.KernelIdeal.S50000x3 .f32) (idx : IVec Cert.KernelIdeal.S50000x32 32) :
    Cert.ReferenceIdeal.Hand.sq pos idx = Cert.KernelIdeal.Hand.sq pos idx := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories agreeing on the five arguments both programs end at the common value of the same gathered
    features, squared distances, weights and bias. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4⟩ := hagree c
  rw [a0, a1, a2, a3, a4, msgs_eq, sq_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
